-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v37) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64x250 : Shape := ⟨3, ![16384, 64, 250]⟩
abbrev S4x1000 : Shape := ⟨2, ![4, 1000]⟩
abbrev S4 : Shape := ⟨1, ![4]⟩
abbrev S50x1000 : Shape := ⟨2, ![50, 1000]⟩
abbrev S50 : Shape := ⟨1, ![50]⟩
abbrev S16384x3 : Shape := ⟨2, ![16384, 3]⟩
abbrev S16384x1 : Shape := ⟨2, ![16384, 1]⟩
abbrev S16384 : Shape := ⟨1, ![16384]⟩
abbrev S_ : Shape := ⟨0, ![]⟩

class Facts : Prop where
  bcast_S_S16384x64x250 : S_.BroadcastsInDim S16384x64x250 (![] : Fin 0 → Fin S16384x64x250.rank)
  reducesTo_S16384x64x250_S_d0_1_2 : S16384x64x250.ReducesTo [0, 1, 2] S_
  h_S_ : 0 < S_.numel
  bcast_S_S4x1000 : S_.BroadcastsInDim S4x1000 (![] : Fin 0 → Fin S4x1000.rank)
  reducesTo_S4x1000_S_d0_1 : S4x1000.ReducesTo [0, 1] S_
  bcast_S_S4 : S_.BroadcastsInDim S4 (![] : Fin 0 → Fin S4.rank)
  reducesTo_S4_S_d0 : S4.ReducesTo [0] S_
  bcast_S_S50x1000 : S_.BroadcastsInDim S50x1000 (![] : Fin 0 → Fin S50x1000.rank)
  reducesTo_S50x1000_S_d0_1 : S50x1000.ReducesTo [0, 1] S_
  bcast_S_S50 : S_.BroadcastsInDim S50 (![] : Fin 0 → Fin S50.rank)
  reducesTo_S50_S_d0 : S50.ReducesTo [0] S_
  bcast_S_S16384x3 : S_.BroadcastsInDim S16384x3 (![] : Fin 0 → Fin S16384x3.rank)
  reducesTo_S16384x3_S_d0_1 : S16384x3.ReducesTo [0, 1] S_
  bcast_S_S16384x1 : S_.BroadcastsInDim S16384x1 (![] : Fin 0 → Fin S16384x1.rank)
  reducesTo_S16384x1_S_d0_1 : S16384x1.ReducesTo [0, 1] S_

variable [Facts]

def fn_part2 {F : FTy → Type} [FloatOps F] (main_arg6 : IVec S16384x1 32) (main_v31 : IVec S_ 1) (main_v32 : IVec S16384x1 32) : IVec S_ 1 :=
  let main_v33 : IVec S16384x1 1 := cmpi .sge main_arg6 main_v32
  let main_c_13 : IVec S_ 1 := constantI S_ 1 1#1
  let main_v34 : IVec S_ 1 := (fun x v => Host.reduce IntOp.andi x v reducesTo_S16384x1_S_d0_1 h_S_) main_v33 main_c_13
  let main_v35 : IVec S_ 1 := andi main_v31 main_v34
  let main_c_14 : IVec S_ 32 := constantI S_ 32 64#32
  let main_v36 : IVec S16384x1 32 := broadcastInDim S16384x1 ![] bcast_S_S16384x1 main_c_14
  let main_v37 : IVec S16384x1 1 := cmpi .slt main_arg6 main_v36
  let main_c_15 : IVec S_ 1 := constantI S_ 1 1#1
  let main_v38 : IVec S_ 1 := (fun x v => Host.reduce IntOp.andi x v reducesTo_S16384x1_S_d0_1 h_S_) main_v37 main_c_15
  let main_v39 : IVec S_ 1 := andi main_v35 main_v38
  main_v39

def fn_part1 {F : FTy → Type} [FloatOps F] (main_arg4 : FVec F S50 .f32) (main_arg5 : IVec S16384x3 32) (main_arg6 : IVec S16384x1 32) (main_v13 : IVec S_ 1) (main_v16 : IVec S50x1000 1) : IVec S_ 1 :=
  let main_c_5 : IVec S_ 1 := constantI S_ 1 1#1
  let main_v17 : IVec S_ 1 := (fun x v => Host.reduce IntOp.andi x v reducesTo_S50x1000_S_d0_1 h_S_) main_v16 main_c_5
  let main_v18 : IVec S_ 1 := andi main_v13 main_v17
  let main_v19 : FVec F S50 .f32 := Host.absf main_arg4
  let main_cst_6 : FVec F S_ .f32 := constant S_ .f32 0x7F800000#32
  let main_v20 : FVec F S50 .f32 := broadcastInDim S50 ![] bcast_S_S50 main_cst_6
  let main_v21 : IVec S50 1 := cmpf .olt main_v19 main_v20
  let main_c_7 : IVec S_ 1 := constantI S_ 1 1#1
  let main_v22 : IVec S_ 1 := (fun x v => Host.reduce IntOp.andi x v reducesTo_S50_S_d0 h_S_) main_v21 main_c_7
  let main_v23 : IVec S_ 1 := andi main_v18 main_v22
  let main_c_8 : IVec S_ 32 := constantI S_ 32 0#32
  let main_v24 : IVec S16384x3 32 := broadcastInDim S16384x3 ![] bcast_S_S16384x3 main_c_8
  let main_v25 : IVec S16384x3 1 := cmpi .sge main_arg5 main_v24
  let main_c_9 : IVec S_ 1 := constantI S_ 1 1#1
  let main_v26 : IVec S_ 1 := (fun x v => Host.reduce IntOp.andi x v reducesTo_S16384x3_S_d0_1 h_S_) main_v25 main_c_9
  let main_v27 : IVec S_ 1 := andi main_v23 main_v26
  let main_c_10 : IVec S_ 32 := constantI S_ 32 64#32
  let main_v28 : IVec S16384x3 32 := broadcastInDim S16384x3 ![] bcast_S_S16384x3 main_c_10
  let main_v29 : IVec S16384x3 1 := cmpi .slt main_arg5 main_v28
  let main_c_11 : IVec S_ 1 := constantI S_ 1 1#1
  let main_v30 : IVec S_ 1 := (fun x v => Host.reduce IntOp.andi x v reducesTo_S16384x3_S_d0_1 h_S_) main_v29 main_c_11
  let main_v31 : IVec S_ 1 := andi main_v27 main_v30
  let main_c_12 : IVec S_ 32 := constantI S_ 32 0#32
  let main_v32 : IVec S16384x1 32 := broadcastInDim S16384x1 ![] bcast_S_S16384x1 main_c_12
  fn_part2 (F := F) main_arg6 main_v31 main_v32

def fn {F : FTy → Type} [FloatOps F] (main_arg0 : FVec F S16384x64x250 .f32) (main_arg1 : FVec F S4x1000 .f32) (main_arg2 : FVec F S4 .f32) (main_arg3 : FVec F S50x1000 .f32) (main_arg4 : FVec F S50 .f32) (main_arg5 : IVec S16384x3 32) (main_arg6 : IVec S16384x1 32) (main_arg7 : IVec S16384 32) (main_arg8 : IVec S16384 32) : IVec S_ 1 :=
  let main_v0 : FVec F S16384x64x250 .f32 := Host.absf main_arg0
  let main_cst : FVec F S_ .f32 := constant S_ .f32 0x7F800000#32
  let main_v1 : FVec F S16384x64x250 .f32 := broadcastInDim S16384x64x250 ![] bcast_S_S16384x64x250 main_cst
  let main_v2 : IVec S16384x64x250 1 := cmpf .olt main_v0 main_v1
  let main_c : IVec S_ 1 := constantI S_ 1 1#1
  let main_v3 : IVec S_ 1 := (fun x v => Host.reduce IntOp.andi x v reducesTo_S16384x64x250_S_d0_1_2 h_S_) main_v2 main_c
  let main_v4 : FVec F S4x1000 .f32 := Host.absf main_arg1
  let main_cst_0 : FVec F S_ .f32 := constant S_ .f32 0x7F800000#32
  let main_v5 : FVec F S4x1000 .f32 := broadcastInDim S4x1000 ![] bcast_S_S4x1000 main_cst_0
  let main_v6 : IVec S4x1000 1 := cmpf .olt main_v4 main_v5
  let main_c_1 : IVec S_ 1 := constantI S_ 1 1#1
  let main_v7 : IVec S_ 1 := (fun x v => Host.reduce IntOp.andi x v reducesTo_S4x1000_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S50x1000 .f32 := Host.absf main_arg3
  let main_cst_4 : FVec F S_ .f32 := constant S_ .f32 0x7F800000#32
  let main_v15 : FVec F S50x1000 .f32 := broadcastInDim S50x1000 ![] bcast_S_S50x1000 main_cst_4
  let main_v16 : IVec S50x1000 1 := cmpf .olt main_v14 main_v15
  fn_part1 (F := F) main_arg4 main_arg5 main_arg6 main_v13 main_v16
-- ==== Kernel.lean ====
abbrev S16384x64x250 : Shape := ⟨3, ![16384, 64, 250]⟩
abbrev S4x1000 : Shape := ⟨2, ![4, 1000]⟩
abbrev S4 : Shape := ⟨1, ![4]⟩
abbrev S50x1000 : Shape := ⟨2, ![50, 1000]⟩
abbrev S50 : Shape := ⟨1, ![50]⟩
abbrev S16384x3 : Shape := ⟨2, ![16384, 3]⟩
abbrev S16384x1 : Shape := ⟨2, ![16384, 1]⟩
abbrev S16384 : Shape := ⟨1, ![16384]⟩
abbrev S16384x4 : Shape := ⟨2, ![16384, 4]⟩
abbrev S_ : Shape := ⟨0, ![]⟩
abbrev S3 : Shape := ⟨1, ![3]⟩
abbrev S1x3 : Shape := ⟨2, ![1, 3]⟩
abbrev S1 : Shape := ⟨1, ![1]⟩
abbrev S1x1 : Shape := ⟨2, ![1, 1]⟩
abbrev S1000x4 : Shape := ⟨2, ![1000, 4]⟩
abbrev S4x250x4 : Shape := ⟨3, ![4, 250, 4]⟩
abbrev S1000x50 : Shape := ⟨2, ![1000, 50]⟩
abbrev S4x250x50 : Shape := ⟨3, ![4, 250, 50]⟩
abbrev S4x250x128 : Shape := ⟨3, ![4, 250, 128]⟩
abbrev S1x128 : Shape := ⟨2, ![1, 128]⟩
abbrev S1x4 : Shape := ⟨2, ![1, 4]⟩
abbrev S1x50 : Shape := ⟨2, ![1, 50]⟩
abbrev S16384x50 : Shape := ⟨2, ![16384, 50]⟩
abbrev S256x64x250 : Shape := ⟨3, ![256, 64, 250]⟩
abbrev S256x4 : Shape := ⟨2, ![256, 4]⟩
abbrev S256x50 : Shape := ⟨2, ![256, 50]⟩
abbrev S256x64 : Shape := ⟨2, ![256, 64]⟩
abbrev S256x128 : Shape := ⟨2, ![256, 128]⟩
abbrev S256x1 : Shape := ⟨2, ![256, 1]⟩
abbrev S256x64x1 : Shape := ⟨3, ![256, 64, 1]⟩
abbrev S256x250 : Shape := ⟨2, ![256, 250]⟩
abbrev S1x250x128 : Shape := ⟨3, ![1, 250, 128]⟩
abbrev S250x128 : Shape := ⟨2, ![250, 128]⟩

abbrev nBuf : Space → Nat
  | .hbm => 56
  | .vmem => 12
  | .smem => 0
  | _ => 0

abbrev bufTy : (tb : Table) → Fin (tcTables nBuf tb) → BufTy
  | .hbm, ⟨0, _⟩ => ⟨S16384x64x250, .f32⟩
  | .hbm, ⟨1, _⟩ => ⟨S4x1000, .f32⟩
  | .hbm, ⟨2, _⟩ => ⟨S4, .f32⟩
  | .hbm, ⟨3, _⟩ => ⟨S50x1000, .f32⟩
  | .hbm, ⟨4, _⟩ => ⟨S50, .f32⟩
  | .hbm, ⟨5, _⟩ => ⟨S16384x3, .i32⟩
  | .hbm, ⟨6, _⟩ => ⟨S16384x1, .i32⟩
  | .hbm, ⟨7, _⟩ => ⟨S16384, .i32⟩
  | .hbm, ⟨8, _⟩ => ⟨S16384, .i32⟩
  | .hbm, ⟨9, _⟩ => ⟨S16384x4, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S16384x4, .i32⟩
  | .hbm, ⟨14, _⟩ => ⟨S16384x4, .i32⟩
  | .hbm, ⟨15, _⟩ => ⟨S_, .i32⟩
  | .hbm, ⟨16, _⟩ => ⟨S16384x4, .i32⟩
  | .hbm, ⟨17, _⟩ => ⟨S16384x4, .i32⟩
  | .hbm, ⟨18, _⟩ => ⟨S3, .i32⟩
  | .hbm, ⟨19, _⟩ => ⟨S1x3, .i32⟩
  | .hbm, ⟨20, _⟩ => ⟨S16384x1, .i32⟩
  | .hbm, ⟨21, _⟩ => ⟨S16384x3, .i32⟩
  | .hbm, ⟨22, _⟩ => ⟨S16384x3, .i32⟩
  | .hbm, ⟨23, _⟩ => ⟨S16384x3, .i1⟩
  | .hbm, ⟨24, _⟩ => ⟨S16384x3, .f32⟩
  | .hbm, ⟨25, _⟩ => ⟨S1, .i32⟩
  | .hbm, ⟨26, _⟩ => ⟨S1x1, .i32⟩
  | .hbm, ⟨27, _⟩ => ⟨S16384x1, .i32⟩
  | .hbm, ⟨28, _⟩ => ⟨S16384x1, .i32⟩
  | .hbm, ⟨29, _⟩ => ⟨S16384x1, .i1⟩
  | .hbm, ⟨30, _⟩ => ⟨S16384x1, .f32⟩
  | .hbm, ⟨31, _⟩ => ⟨S16384x4, .f32⟩
  | .hbm, ⟨32, _⟩ => ⟨S1000x4, .f32⟩
  | .hbm, ⟨33, _⟩ => ⟨S4x250x4, .f32⟩
  | .hbm, ⟨34, _⟩ => ⟨S1000x50, .f32⟩
  | .hbm, ⟨35, _⟩ => ⟨S4x250x50, .f32⟩
  | .hbm, ⟨36, _⟩ => ⟨S_, .f32⟩
  | .hbm, ⟨37, _⟩ => ⟨S4x250x128, .f32⟩
  | .hbm, ⟨38, _⟩ => ⟨S_, .i32⟩
  | .hbm, ⟨39, _⟩ => ⟨S1, .i32⟩
  | .hbm, ⟨40, _⟩ => ⟨S4x250x128, .f32⟩
  | .hbm, ⟨41, _⟩ => ⟨S_, .i32⟩
  | .hbm, ⟨42, _⟩ => ⟨S1, .i32⟩
  | .hbm, ⟨43, _⟩ => ⟨S4x250x128, .f32⟩
  | .hbm, ⟨44, _⟩ => ⟨S_, .f32⟩
  | .hbm, ⟨45, _⟩ => ⟨S1x128, .f32⟩
  | .hbm, ⟨46, _⟩ => ⟨S1x4, .f32⟩
  | .hbm, ⟨47, _⟩ => ⟨S_, .i32⟩
  | .hbm, ⟨48, _⟩ => ⟨S1, .i32⟩
  | .hbm, ⟨49, _⟩ => ⟨S1x128, .f32⟩
  | .hbm, ⟨50, _⟩ => ⟨S1x50, .f32⟩
  | .hbm, ⟨51, _⟩ => ⟨S_, .i32⟩
  | .hbm, ⟨52, _⟩ => ⟨S1, .i32⟩
  | .hbm, ⟨53, _⟩ => ⟨S1x128, .f32⟩
  | .hbm, ⟨54, _⟩ => ⟨S16384x4, .f32⟩
  | .hbm, ⟨55, _⟩ => ⟨S16384x50, .f32⟩
  | .local _ .vmem, ⟨0, _⟩ => ⟨S256x64x250, .f32⟩
  | .local _ .vmem, ⟨1, _⟩ => ⟨S256x64x250, .f32⟩
  | .local _ .vmem, ⟨2, _⟩ => ⟨S256x4, .i32⟩
  | .local _ .vmem, ⟨3, _⟩ => ⟨S256x4, .i32⟩
  | .local _ .vmem, ⟨4, _⟩ => ⟨S256x4, .f32⟩
  | .local _ .vmem, ⟨5, _⟩ => ⟨S256x4, .f32⟩
  | .local _ .vmem, ⟨6, _⟩ => ⟨S4x250x128, .f32⟩
  | .local _ .vmem, ⟨7, _⟩ => ⟨S1x128, .f32⟩
  | .local _ .vmem, ⟨8, _⟩ => ⟨S256x4, .f32⟩
  | .local _ .vmem, ⟨9, _⟩ => ⟨S256x4, .f32⟩
  | .local _ .vmem, ⟨10, _⟩ => ⟨S256x50, .f32⟩
  | .local _ .vmem, ⟨11, _⟩ => ⟨S256x50, .f32⟩
  | _, _ => ⟨S16384x64x250, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst : Ref sig .tc := ⟨.hbm, 36, rfl⟩
abbrev main_v20 : Ref sig .tc := ⟨.hbm, 37, rfl⟩
abbrev main_c_1 : Ref sig .tc := ⟨.hbm, 38, rfl⟩
abbrev main_v21 : Ref sig .tc := ⟨.hbm, 39, rfl⟩
abbrev main_v22 : Ref sig .tc := ⟨.hbm, 40, rfl⟩
abbrev main_c_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_c_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32_0 : Ref sig .tc := ⟨.hbm, 54, rfl⟩
abbrev main_v32_1 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64x250 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x250x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S16384x3_S16384x1_S16384x4_d1 : Shape.Concatenates [S16384x3, S16384x1] S16384x4 1
  bcast_S_S16384x4 : S_.BroadcastsInDim S16384x4 (![] : Fin 0 → Fin S16384x4.rank)
  bcast_S3_S1x3_1 : S3.BroadcastsInDim S1x3 (![1] : Fin 1 → Fin S1x3.rank)
  bcast_S16384_S16384x1_0 : S16384.BroadcastsInDim S16384x1 (![0] : Fin 1 → Fin S16384x1.rank)
  bcast_S1x3_S16384x3_0_1 : S1x3.BroadcastsInDim S16384x3 (![0, 1] : Fin 2 → Fin S16384x3.rank)
  bcast_S16384x1_S16384x3_0_1 : S16384x1.BroadcastsInDim S16384x3 (![0, 1] : Fin 2 → Fin S16384x3.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  transposes_S4x1000_S1000x4_1_0 : S4x1000.Transposes [1, 0] S1000x4
  shapeCasts_S1000x4_S4x250x4 : S1000x4.ShapeCasts S4x250x4
  transposes_S50x1000_S1000x50_1_0 : S50x1000.Transposes [1, 0] S1000x50
  shapeCasts_S1000x50_S4x250x50 : S1000x50.ShapeCasts S4x250x50
  bcast_S_S4x250x128 : S_.BroadcastsInDim S4x250x128 (![] : Fin 0 → Fin S4x250x128.rank)
  bcast_S_S1 : S_.BroadcastsInDim S1 (![] : Fin 0 → Fin S1.rank)
  bcast_S_S1x128 : S_.BroadcastsInDim S1x128 (![] : Fin 0 → Fin S1x128.rank)
  shapeCasts_S4_S1x4 : S4.ShapeCasts S1x4
  shapeCasts_S50_S1x50 : S50.ShapeCasts S1x50
  inb_S256x4_S256x4_0_0 : ∀ a, (![0, 0] : Fin 2 → Nat) a + S256x4.size a ≤ S256x4.size a
  h_S256x4 : 0 < S256x4.numel
  shapeCasts_S256x4_S256x4 : S256x4.ShapeCasts S256x4
  inb_S256x64x250_S256x64x250_0_0_0 : ∀ a, (![0, 0, 0] : Fin 3 → Nat) a + S256x64x250.size a ≤ S256x64x250.size a
  h_S256x64x250 : 0 < S256x64x250.numel
  inb_S4x250x128_S4x250x128_0_0_0 : ∀ a, (![0, 0, 0] : Fin 3 → Nat) a + S4x250x128.size a ≤ S4x250x128.size a
  h_S4x250x128 : 0 < S4x250x128.numel
  shapeCasts_S4x250x128_S4x250x128 : S4x250x128.ShapeCasts S4x250x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S256x64_d1_w32 : S256x64.Iotas .tc 32 [1]
  slices_S256x4_o0_0_S256x1 : S256x4.Slices ![0, 0] S256x1
  broadcasts_S256x1_S256x64 : S256x1.Broadcasts S256x64
  natLt_1_32 : 1 < 32
  shapeCasts_S256x64_S256x64x1 : S256x64.ShapeCasts S256x64x1
  broadcasts_S256x64x1_S256x64x250 : S256x64x1.Broadcasts S256x64x250
  reduces_S256x64x250_S256x250 : S256x64x250.Reduces [1] S256x250
  slices_S4x250x128_o0_0_0_S1x250x128 : S4x250x128.Slices ![0, 0, 0] S1x250x128
  shapeCasts_S1x250x128_S250x128 : S1x250x128.ShapeCasts S250x128
  slices_S256x4_o0_1_S256x1 : S256x4.Slices ![0, 1] S256x1
  slices_S4x250x128_o1_0_0_S1x250x128 : S4x250x128.Slices ![1, 0, 0] S1x250x128
  slices_S256x4_o0_2_S256x1 : S256x4.Slices ![0, 2] S256x1
  slices_S4x250x128_o2_0_0_S1x250x128 : S4x250x128.Slices ![2, 0, 0] S1x250x128
  slices_S256x4_o0_3_S256x1 : S256x4.Slices ![0, 3] S256x1
  slices_S4x250x128_o3_0_0_S1x250x128 : S4x250x128.Slices ![3, 0, 0] S1x250x128
  broadcasts_S1x128_S256x128 : S1x128.Broadcasts S256x128
  slices_S256x128_o0_0_S256x4 : S256x128.Slices ![0, 0] S256x4
  slices_S256x128_o0_4_S256x50 : S256x128.Slices ![0, 4] S256x50
  inb_S256x50_S256x50_0_0 : ∀ a, (![0, 0] : Fin 2 → Nat) a + S256x50.size a ≤ S256x50.size a
  h_S256x50 : 0 < S256x50.numel
  scatter_S4x250x128_S1_S4x250x4_012_n_2_0_wf : ScatterDims.WF S4x250x128 S1 S4x250x4 [0, 1, 2] [] [2] 0
  scatter_S4x250x128_S1_S4x250x50_012_n_2_0_wf : ScatterDims.WF S4x250x128 S1 S4x250x50 [0, 1, 2] [] [2] 0
  scatter_S1x128_S1_S1x4_01_n_1_0_wf : ScatterDims.WF S1x128 S1 S1x4 [0, 1] [] [1] 0
  scatter_S1x128_S1_S1x50_01_n_1_0_wf : ScatterDims.WF S1x128 S1 S1x50 [0, 1] [] [1] 0
  dot_S256x250_S250x128_S256x128_1_0_0_1_n_n_wf : DotDims.WF S256x250 S250x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64x250.size a ≤ S16384x64x250.size a
  hwx0_0 : ∀ i : grid0.Coords, EltTy.bits .f32 = 32 ∨ (Rect.block (s := S16384x64x250) S256x64x250.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4.size a ≤ S16384x4.size a
  hwx0_1 : ∀ i : grid0.Coords, EltTy.bits .i32 = 32 ∨ (Rect.block (s := S16384x4) S256x4.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4.size a ≤ S16384x4.size a
  hwx0_2 : ∀ i : grid0.Coords, EltTy.bits .f32 = 32 ∨ (Rect.block (s := S16384x4) S256x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x250x128.size a ≤ S4x250x128.size a
  hwx0_3 : ∀ i : grid0.Coords, EltTy.bits .f32 = 32 ∨ (Rect.block (s := S4x250x128) S4x250x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x4.size a ≤ S16384x4.size a
  hwx0_5 : ∀ i : grid0.Coords, EltTy.bits .f32 = 32 ∨ (Rect.block (s := S16384x4) S256x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x50.size a ≤ S16384x50.size a
  hwx0_6 : ∀ i : grid0.Coords, EltTy.bits .f32 = 32 ∨ (Rect.block (s := S16384x50) S256x50.size (cc0_transform_6 i) (hinb0_6 i)).WholeWords (EltTy.packing .f32)

variable [Facts₀]

def scatter_S4x250x128_S1_S4x250x4_012_n_2_0 : ScatterDims S4x250x128 S1 S4x250x4 where
  updateWindowDims := [0, 1, 2]
  insertedWindowDims := []
  scatterDimsToOperandDims := [2]
  indexVectorDim := 0
  wf := scatter_S4x250x128_S1_S4x250x4_012_n_2_0_wf
def scatter_S4x250x128_S1_S4x250x50_012_n_2_0 : ScatterDims S4x250x128 S1 S4x250x50 where
  updateWindowDims := [0, 1, 2]
  insertedWindowDims := []
  scatterDimsToOperandDims := [2]
  indexVectorDim := 0
  wf := scatter_S4x250x128_S1_S4x250x50_012_n_2_0_wf
def scatter_S1x128_S1_S1x4_01_n_1_0 : ScatterDims S1x128 S1 S1x4 where
  updateWindowDims := [0, 1]
  insertedWindowDims := []
  scatterDimsToOperandDims := [1]
  indexVectorDim := 0
  wf := scatter_S1x128_S1_S1x4_01_n_1_0_wf
def scatter_S1x128_S1_S1x50_01_n_1_0 : ScatterDims S1x128 S1 S1x50 where
  updateWindowDims := [0, 1]
  insertedWindowDims := []
  scatterDimsToOperandDims := [1]
  indexVectorDim := 0
  wf := scatter_S1x128_S1_S1x50_01_n_1_0_wf
def dot_S256x250_S250x128_S256x128_1_0_0_1_n_n : DotDims S256x250 S250x128 S256x128 where
  lhsContracting := [1]
  rhsContracting := [0]
  lhsNonContracting := [0]
  rhsNonContracting := [1]
  lhsBatch := []
  rhsBatch := []
  wf := dot_S256x250_S250x128_S256x128_1_0_0_1_n_n_wf

abbrev win0_0 : Pipeline.Window sig grid0 :=
  Pipeline.Window.ofSpec (Memref.whole main_arg0) S256x64x250.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S256x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S4x250x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32_0) S256x4.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v32_1) S256x50.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x64x250 : Shape := ⟨3, ![16384, 64, 250]⟩
abbrev S4x1000 : Shape := ⟨2, ![4, 1000]⟩
abbrev S4 : Shape := ⟨1, ![4]⟩
abbrev S50x1000 : Shape := ⟨2, ![50, 1000]⟩
abbrev S50 : Shape := ⟨1, ![50]⟩
abbrev S16384x3 : Shape := ⟨2, ![16384, 3]⟩
abbrev S16384x1 : Shape := ⟨2, ![16384, 1]⟩
abbrev S16384 : Shape := ⟨1, ![16384]⟩
abbrev S16384x3x1 : Shape := ⟨3, ![16384, 3, 1]⟩
abbrev S_ : Shape := ⟨0, ![]⟩
abbrev S1 : Shape := ⟨1, ![1]⟩
abbrev S1x1x1 : Shape := ⟨3, ![1, 1, 1]⟩
abbrev S16384x3x250 : Shape := ⟨3, ![16384, 3, 250]⟩
abbrev S3 : Shape := ⟨1, ![3]⟩
abbrev S1x3 : Shape := ⟨2, ![1, 3]⟩
abbrev S16384x750 : Shape := ⟨2, ![16384, 750]⟩
abbrev S16384x1x1 : Shape := ⟨3, ![16384, 1, 1]⟩
abbrev S16384x1x250 : Shape := ⟨3, ![16384, 1, 250]⟩
abbrev S1x1 : Shape := ⟨2, ![1, 1]⟩
abbrev S16384x250 : Shape := ⟨2, ![16384, 250]⟩
abbrev S16384x1000 : Shape := ⟨2, ![16384, 1000]⟩
abbrev S1000x4 : Shape := ⟨2, ![1000, 4]⟩
abbrev S16384x4 : Shape := ⟨2, ![16384, 4]⟩
abbrev S1x4 : Shape := ⟨2, ![1, 4]⟩
abbrev S1000x50 : Shape := ⟨2, ![1000, 50]⟩
abbrev S16384x50 : Shape := ⟨2, ![16384, 50]⟩
abbrev S1x50 : Shape := ⟨2, ![1, 50]⟩

abbrev nBuf : Space → Nat
  | .hbm => 89
  | .vmem => 0
  | .smem => 0
  | _ => 0

abbrev bufTy : (tb : Table) → Fin (tcTables nBuf tb) → BufTy
  | .hbm, ⟨0, _⟩ => ⟨S16384x64x250, .f32⟩
  | .hbm, ⟨1, _⟩ => ⟨S4x1000, .f32⟩
  | .hbm, ⟨2, _⟩ => ⟨S4, .f32⟩
  | .hbm, ⟨3, _⟩ => ⟨S50x1000, .f32⟩
  | .hbm, ⟨4, _⟩ => ⟨S50, .f32⟩
  | .hbm, ⟨5, _⟩ => ⟨S16384x3, .i32⟩
  | .hbm, ⟨6, _⟩ => ⟨S16384x1, .i32⟩
  | .hbm, ⟨7, _⟩ => ⟨S16384, .i32⟩
  | .hbm, ⟨8, _⟩ => ⟨S16384, .i32⟩
  | .hbm, ⟨9, _⟩ => ⟨S16384x3x1, .i32⟩
  | .hbm, ⟨10, _⟩ => ⟨S_, .i32⟩
  | .hbm, ⟨11, _⟩ => ⟨S16384x3x1, .i32⟩
  | .hbm, ⟨12, _⟩ => ⟨S16384x3x1, .i1⟩
  | .hbm, ⟨13, _⟩ => ⟨S_, .i32⟩
  | .hbm, ⟨14, _⟩ => ⟨S16384x3x1, .i32⟩
  | .hbm, ⟨15, _⟩ => ⟨S16384x3x1, .i32⟩
  | .hbm, ⟨16, _⟩ => ⟨S16384x3x1, .i32⟩
  | .hbm, ⟨17, _⟩ => ⟨S1, .i32⟩
  | .hbm, ⟨18, _⟩ => ⟨S_, .i32⟩
  | .hbm, ⟨19, _⟩ => ⟨S16384x3x1, .i32⟩
  | .hbm, ⟨20, _⟩ => ⟨S16384x3x1, .i1⟩
  | .hbm, ⟨21, _⟩ => ⟨S1x1x1, .i32⟩
  | .hbm, ⟨22, _⟩ => ⟨S16384x3x1, .i32⟩
  | .hbm, ⟨23, _⟩ => ⟨S16384x3x1, .i1⟩
  | .hbm, ⟨24, _⟩ => ⟨S16384x3x1, .i1⟩
  | .hbm, ⟨25, _⟩ => ⟨S_, .i1⟩
  | .hbm, ⟨26, _⟩ => ⟨S16384x3, .i1⟩
  | .hbm, ⟨27, _⟩ => ⟨S16384x3x250, .f32⟩
  | .hbm, ⟨28, _⟩ => ⟨S16384x3x250, .i1⟩
  | .hbm, ⟨29, _⟩ => ⟨S_, .f32⟩
  | .hbm, ⟨30, _⟩ => ⟨S16384x3x250, .f32⟩
  | .hbm, ⟨31, _⟩ => ⟨S16384x3x250, .f32⟩
  | .hbm, ⟨32, _⟩ => ⟨S3, .i32⟩
  | .hbm, ⟨33, _⟩ => ⟨S1x3, .i32⟩
  | .hbm, ⟨34, _⟩ => ⟨S16384x1, .i32⟩
  | .hbm, ⟨35, _⟩ => ⟨S16384x3, .i32⟩
  | .hbm, ⟨36, _⟩ => ⟨S16384x3, .i32⟩
  | .hbm, ⟨37, _⟩ => ⟨S16384x3, .i1⟩
  | .hbm, ⟨38, _⟩ => ⟨S16384x3x1, .i1⟩
  | .hbm, ⟨39, _⟩ => ⟨S16384x3x1, .f32⟩
  | .hbm, ⟨40, _⟩ => ⟨S16384x3x250, .f32⟩
  | .hbm, ⟨41, _⟩ => ⟨S16384x3x250, .f32⟩
  | .hbm, ⟨42, _⟩ => ⟨S16384x750, .f32⟩
  | .hbm, ⟨43, _⟩ => ⟨S16384x1x1, .i32⟩
  | .hbm, ⟨44, _⟩ => ⟨S_, .i32⟩
  | .hbm, ⟨45, _⟩ => ⟨S16384x1x1, .i32⟩
  | .hbm, ⟨46, _⟩ => ⟨S16384x1x1, .i1⟩
  | .hbm, ⟨47, _⟩ => ⟨S_, .i32⟩
  | .hbm, ⟨48, _⟩ => ⟨S16384x1x1, .i32⟩
  | .hbm, ⟨49, _⟩ => ⟨S16384x1x1, .i32⟩
  | .hbm, ⟨50, _⟩ => ⟨S16384x1x1, .i32⟩
  | .hbm, ⟨51, _⟩ => ⟨S1, .i32⟩
  | .hbm, ⟨52, _⟩ => ⟨S_, .i32⟩
  | .hbm, ⟨53, _⟩ => ⟨S16384x1x1, .i32⟩
  | .hbm, ⟨54, _⟩ => ⟨S16384x1x1, .i1⟩
  | .hbm, ⟨55, _⟩ => ⟨S1x1x1, .i32⟩
  | .hbm, ⟨56, _⟩ => ⟨S16384x1x1, .i32⟩
  | .hbm, ⟨57, _⟩ => ⟨S16384x1x1, .i1⟩
  | .hbm, ⟨58, _⟩ => ⟨S16384x1x1, .i1⟩
  | .hbm, ⟨59, _⟩ => ⟨S_, .i1⟩
  | .hbm, ⟨60, _⟩ => ⟨S16384x1, .i1⟩
  | .hbm, ⟨61, _⟩ => ⟨S16384x1x250, .f32⟩
  | .hbm, ⟨62, _⟩ => ⟨S16384x1x250, .i1⟩
  | .hbm, ⟨63, _⟩ => ⟨S_, .f32⟩
  | .hbm, ⟨64, _⟩ => ⟨S16384x1x250, .f32⟩
  | .hbm, ⟨65, _⟩ => ⟨S16384x1x250, .f32⟩
  | .hbm, ⟨66, _⟩ => ⟨S1, .i32⟩
  | .hbm, ⟨67, _⟩ => ⟨S1x1, .i32⟩
  | .hbm, ⟨68, _⟩ => ⟨S16384x1, .i32⟩
  | .hbm, ⟨69, _⟩ => ⟨S16384x1, .i32⟩
  | .hbm, ⟨70, _⟩ => ⟨S16384x1, .i1⟩
  | .hbm, ⟨71, _⟩ => ⟨S16384x1x1, .i1⟩
  | .hbm, ⟨72, _⟩ => ⟨S16384x1x1, .f32⟩
  | .hbm, ⟨73, _⟩ => ⟨S16384x1x250, .f32⟩
  | .hbm, ⟨74, _⟩ => ⟨S16384x1x250, .f32⟩
  | .hbm, ⟨75, _⟩ => ⟨S16384x250, .f32⟩
  | .hbm, ⟨76, _⟩ => ⟨S16384x1000, .f32⟩
  | .hbm, ⟨77, _⟩ => ⟨S1000x4, .f32⟩
  | .hbm, ⟨78, _⟩ => ⟨S16384x4, .f32⟩
  | .hbm, ⟨79, _⟩ => ⟨S1x4, .f32⟩
  | .hbm, ⟨80, _⟩ => ⟨S16384x4, .f32⟩
  | .hbm, ⟨81, _⟩ => ⟨S16384x4, .f32⟩
  | .hbm, ⟨82, _⟩ => ⟨S16384x4, .f32⟩
  | .hbm, ⟨83, _⟩ => ⟨S1000x50, .f32⟩
  | .hbm, ⟨84, _⟩ => ⟨S16384x50, .f32⟩
  | .hbm, ⟨85, _⟩ => ⟨S1x50, .f32⟩
  | .hbm, ⟨86, _⟩ => ⟨S16384x50, .f32⟩
  | .hbm, ⟨87, _⟩ => ⟨S16384x50, .f32⟩
  | .hbm, ⟨88, _⟩ => ⟨S16384x50, .f32⟩
  | _, _ => ⟨S16384x64x250, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_c_2 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_c_3 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_cst : Ref sig .tc := ⟨.hbm, 29, rfl⟩
abbrev main_call0_v14 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_c_1 : Ref sig .tc := ⟨.hbm, 51, rfl⟩
abbrev main_call1_c_2 : Ref sig .tc := ⟨.hbm, 52, rfl⟩
abbrev main_call1_v5 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_c_3 : Ref sig .tc := ⟨.hbm, 59, rfl⟩
abbrev main_call1_v11 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩

abbrev nD : Nat := 1
abbrev τ : Topo := Topo.v7x

variable {F : FTy → Type} [FloatOps F]

class Facts₀ : Prop where
  bcast_S16384x3_S16384x3x1_0_1 : S16384x3.BroadcastsInDim S16384x3x1 (![0, 1] : Fin 2 → Fin S16384x3x1.rank)
  bcast_S_S16384x3x1 : S_.BroadcastsInDim S16384x3x1 (![] : Fin 0 → Fin S16384x3x1.rank)
  bcast_S1_S1x1x1_2 : S1.BroadcastsInDim S1x1x1 (![2] : Fin 1 → Fin S1x1x1.rank)
  bcast_S1x1x1_S16384x3x1_0_1_2 : S1x1x1.BroadcastsInDim S16384x3x1 (![0, 1, 2] : Fin 3 → Fin S16384x3x1.rank)
  reducesTo_S16384x3x1_S16384x3_d2 : S16384x3x1.ReducesTo [2] S16384x3
  h_S_ : 0 < S_.numel
  bcast_S16384x3_S16384x3x250_0_1 : S16384x3.BroadcastsInDim S16384x3x250 (![0, 1] : Fin 2 → Fin S16384x3x250.rank)
  bcast_S_S16384x3x250 : S_.BroadcastsInDim S16384x3x250 (![] : Fin 0 → Fin S16384x3x250.rank)
  bcast_S3_S1x3_1 : S3.BroadcastsInDim S1x3 (![1] : Fin 1 → Fin S1x3.rank)
  bcast_S16384_S16384x1_0 : S16384.BroadcastsInDim S16384x1 (![0] : Fin 1 → Fin S16384x1.rank)
  bcast_S1x3_S16384x3_0_1 : S1x3.BroadcastsInDim S16384x3 (![0, 1] : Fin 2 → Fin S16384x3.rank)
  bcast_S16384x1_S16384x3_0_1 : S16384x1.BroadcastsInDim S16384x3 (![0, 1] : Fin 2 → Fin S16384x3.rank)
  bcast_S16384x3x1_S16384x3x250_0_1_2 : S16384x3x1.BroadcastsInDim S16384x3x250 (![0, 1, 2] : Fin 3 → Fin S16384x3x250.rank)
  shapeCasts_S16384x3x250_S16384x750 : S16384x3x250.ShapeCasts S16384x750
  bcast_S16384x1_S16384x1x1_0_1 : S16384x1.BroadcastsInDim S16384x1x1 (![0, 1] : Fin 2 → Fin S16384x1x1.rank)
  bcast_S_S16384x1x1 : S_.BroadcastsInDim S16384x1x1 (![] : Fin 0 → Fin S16384x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S16384x1_S16384x1x250_0_1 : S16384x1.BroadcastsInDim S16384x1x250 (![0, 1] : Fin 2 → Fin S16384x1x250.rank)
  bcast_S_S16384x1x250 : S_.BroadcastsInDim S16384x1x250 (![] : Fin 0 → Fin S16384x1x250.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S16384x1x1_S16384x1x250_0_1_2 : S16384x1x1.BroadcastsInDim S16384x1x250 (![0, 1, 2] : Fin 3 → Fin S16384x1x250.rank)
  shapeCasts_S16384x1x250_S16384x250 : S16384x1x250.ShapeCasts S16384x250
  concatenates_S16384x750_S16384x250_S16384x1000_d1 : Shape.Concatenates [S16384x750, S16384x250] S16384x1000 1
  transposes_S4x1000_S1000x4_1_0 : S4x1000.Transposes [1, 0] S1000x4
  bcast_S4_S1x4_1 : S4.BroadcastsInDim S1x4 (![1] : Fin 1 → Fin S1x4.rank)
  bcast_S1x4_S16384x4_0_1 : S1x4.BroadcastsInDim S16384x4 (![0, 1] : Fin 2 → Fin S16384x4.rank)
  transposes_S50x1000_S1000x50_1_0 : S50x1000.Transposes [1, 0] S1000x50
  bcast_S50_S1x50_1 : S50.BroadcastsInDim S1x50 (![1] : Fin 1 → Fin S1x50.rank)
  bcast_S1x50_S16384x50_0_1 : S1x50.BroadcastsInDim S16384x50 (![0, 1] : Fin 2 → Fin S16384x50.rank)
  gather_S16384x64x250_S16384x3x1_S16384x3x250_2_1_0_0_1_2_11250_wf : GatherDims.WF S16384x64x250 S16384x3x1 S16384x3x250 [2] [1] [0] [1] [0] 2 ![1, 1, 250]
  gather_S16384x64x250_S16384x1x1_S16384x1x250_2_1_0_0_1_2_11250_wf : GatherDims.WF S16384x64x250 S16384x1x1 S16384x1x250 [2] [1] [0] [1] [0] 2 ![1, 1, 250]
  dot_S16384x1000_S1000x4_S16384x4_1_0_0_1_n_n_wf : DotDims.WF S16384x1000 S1000x4 S16384x4 [1] [0] [0] [1] [] []
  dot_S16384x1000_S1000x50_S16384x50_1_0_0_1_n_n_wf : DotDims.WF S16384x1000 S1000x50 S16384x50 [1] [0] [0] [1] [] []

variable [Facts₀]

def gather_S16384x64x250_S16384x3x1_S16384x3x250_2_1_0_0_1_2_11250 : GatherDims S16384x64x250 S16384x3x1 S16384x3x250 where
  offsetDims := [2]
  collapsedSliceDims := [1]
  operandBatchingDims := [0]
  startIndicesBatchingDims := [0]
  startIndexMap := [1]
  indexVectorDim := 2
  sliceSizes := ![1, 1, 250]
  wf := gather_S16384x64x250_S16384x3x1_S16384x3x250_2_1_0_0_1_2_11250_wf
def gather_S16384x64x250_S16384x1x1_S16384x1x250_2_1_0_0_1_2_11250 : GatherDims S16384x64x250 S16384x1x1 S16384x1x250 where
  offsetDims := [2]
  collapsedSliceDims := [1]
  operandBatchingDims := [0]
  startIndicesBatchingDims := [0]
  startIndexMap := [1]
  indexVectorDim := 2
  sliceSizes := ![1, 1, 250]
  wf := gather_S16384x64x250_S16384x1x1_S16384x1x250_2_1_0_0_1_2_11250_wf
def dot_S16384x1000_S1000x4_S16384x4_1_0_0_1_n_n : DotDims S16384x1000 S1000x4 S16384x4 where
  lhsContracting := [1]
  rhsContracting := [0]
  lhsNonContracting := [0]
  rhsNonContracting := [1]
  lhsBatch := []
  rhsBatch := []
  wf := dot_S16384x1000_S1000x4_S16384x4_1_0_0_1_n_n_wf
def dot_S16384x1000_S1000x50_S16384x50_1_0_0_1_n_n : DotDims S16384x1000 S1000x50 S16384x50 where
  lhsContracting := [1]
  rhsContracting := [0]
  lhsNonContracting := [0]
  rhsNonContracting := [1]
  lhsBatch := []
  rhsBatch := []
  wf := dot_S16384x1000_S1000x50_S16384x50_1_0_0_1_n_n_wf

class Facts : Prop extends Facts₀ where

variable [Facts]
-- ==== Proof.LibCat2.lean ====
/-
  A two-piece concatenation as a function of its two operands.

  `concatenate` takes its pieces as a LIST of shape–array pairs. A simplifier pass that computes what a buffer holds after
  a line of host operations rewrites inside the arguments of an operation's function, but not inside such a list, so the
  operands of a concatenation of COMPUTED arrays stay unevaluated folds, and a closing comparison has to evaluate them by
  unfolding, which can take minutes or run out of recursion depth. `cat2` names the two operands as plain arguments:
  rewriting a two-piece `concatenate` to `cat2` (`cat2_eq`, in the same pass) lets the pass go on into both operands;
  `cat2` unfolds back to the `concatenate` by definition.
-/
import Idealize.ShloMosaic.PureOps.ShapeOps

namespace Cert.LibCat2

open Idealize.ShloMosaic

/-- Two arrays joined along axis `a`, as a function of the two. -/
def cat2 {α : Type} (t : Shape) (a : Fin t.rank) (s₁ s₂ : Shape) (h : Shape.Concatenates [s₁, s₂] t a)
    (x₁ : s₁.Idx → α) (x₂ : s₂.Idx → α) : t.Idx → α :=
  concatenate t a [⟨s₁, x₁⟩, ⟨s₂, x₂⟩] h

/-- A two-piece concatenation is `cat2` of its operands. -/
theorem cat2_eq {α : Type} (t : Shape) (a : Fin t.rank) (s₁ s₂ : Shape) (h : Shape.Concatenates [s₁, s₂] t a)
    (x₁ : s₁.Idx → α) (x₂ : s₂.Idx → α) :
    concatenate t a [⟨s₁, x₁⟩, ⟨s₂, x₂⟩] h = cat2 t a s₁ s₂ h x₁ x₂ := rfl

end Cert.LibCat2
-- ==== Proof.LibTRef.lean ====
/-
  A typed reference's two transports are inverse to each other.

  A module-local function's host operations read and write their buffers through a typed reference, which carries
  contents between the value's type and the buffer's along the equation of the two. Whatever that equation's proof,
  transporting there and back is the identity (`ofBuf_toBuf`, `toBuf_ofBuf`): a composed term of such operations
  reads as the plain composition of their functions.
-/
import Idealize.ShloMosaic.Lib.StableHlo

noncomputable section

namespace Cert.LibTRef

open Idealize.ShloMosaic Idealize.ShloMosaic.StableHlo

variable {sig : RefSig} {T : BufTy} {Val : EltTy → Type}

/-- Contents carried to the buffer's type and back are the contents. -/
theorem ofBuf_toBuf (x : TRef sig T) (v : T.Contents Val) : x.ofBuf (x.toBuf v) = v := by
  obtain ⟨r, rfl, h2, h3⟩ := x
  rfl

/-- Contents carried to the value's type and back are the contents. -/
theorem toBuf_ofBuf (x : TRef sig T) (u : x.ref.ty.Contents Val) : x.toBuf (x.ofBuf u) = u := by
  obtain ⟨r, rfl, h2, h3⟩ := x
  rfl

end Cert.LibTRef

end
-- ==== Proof.Spec.lean ====
/-
  What the two programs compute, index by index, over the extended reals.

  A parser state `b` has four slots: three stack slots and one buffer slot. Slot `k` names a sentence position by a
  32-bit word (`posWord`), and is live when `k` is below the stack's length (slots 0, 1, 2) or the buffer is
  non-empty (slot 3). The feature of slot `k` is row `pos b k` of the state's 64 × 250 matrix of LSTM outputs,
  multiplied by the live bit read as 0 or 1. The four features, laid end to end, are a vector of length 1000; each
  output entry is `tanh` of that vector's inner product with one row of a weight matrix, plus a bias.
  The double sum over (slot, column) is the form both programs are brought to.
-/
import Idealize.ShloMosaic.PureOps.Ideal
import Idealize.ShloMosaic.Lib.ValueIdx
import Mathlib.Algebra.BigOperators.Fin

noncomputable section

open scoped BigOperators

namespace Cert.Spec

open Idealize.ShloMosaic Idealize.ShloMosaic.ValueIdx

/-- Column `d` of slot `k` in the feature vector of length 1000. -/
def flat (k : Fin 4) (d : Fin 250) : Fin 1000 := ⟨250 * k.val + d.val, by have := k.isLt; have := d.isLt; omega⟩

theorem flat_val (k : Fin 4) (d : Fin 250) : (flat k d).val = 250 * k.val + d.val := rfl

/-- One output entry: `tanh (∑ₖ ∑_d f k d · w k d + β)`. -/
def entry2 (f w : Fin 4 → Fin 250 → EReal) (β : EReal) : EReal :=
  Ideal.tanh ((∑ k : Fin 4, ∑ d : Fin 250, f k d * w k d) + β)

/-- A sum over the feature vector is the sum over slots of the sums over a slot's columns. -/
theorem sum_flat {M : Type*} [AddCommMonoid M] (g : Fin 1000 → M) :
    ∑ j : Fin 1000, g j = ∑ k : Fin 4, ∑ d : Fin 250, g (flat k d) := by
  rw [← (finProdFinEquiv : Fin 4 × Fin 250 ≃ Fin 1000).sum_comp g, Fintype.sum_prod_type]
  refine Finset.sum_congr rfl fun k _ => Finset.sum_congr rfl fun d _ => congrArg g (Fin.ext ?_)
  show d.val + 250 * k.val = 250 * k.val + d.val
  omega

/-- A sum against an indicator of one position picks that position's term, on the extended reals and with a factor
    `μ` carried along: the other terms are `(0 · μ) · y = 0`, whatever `y` is. -/
theorem sum_onehot (q : Fin 64) (μ : EReal) (y : Fin 64 → EReal) :
    ∑ s : Fin 64, ((if s = q then (1 : EReal) else 0) * μ) * y s = μ * y q := by
  rw [Finset.sum_eq_single q]
  · rw [if_pos rfl, one_mul]
  · intro s _ hs
    rw [if_neg hs, zero_mul, zero_mul]
  · intro hq
    exact absurd (Finset.mem_univ q) hq

section
variable (x : FVec Ideal ⟨3, ![16384, 64, 250]⟩ .f32)
  (si : IVec ⟨2, ![16384, 3]⟩ 32) (bi : IVec ⟨2, ![16384, 1]⟩ 32) (sl bl : IVec ⟨1, ![16384]⟩ 32)

/-- The word naming the sentence position of slot `k` of state `b`: slots 0–2 are the stack's, slot 3 the buffer's. -/
def posWord (b : Fin 16384) (k : Fin 4) : BitVec 32 :=
  if h : k.val < 3 then si (ix2 b (⟨k.val, h⟩ : Fin 3)) else bi (ix2 b (0 : Fin 1))

/-- Every position word names a row of the sentence: as an unsigned number it is below 64, that is, read signed it
    lies in [0, 64). -/
def InRange : Prop := ∀ (b : Fin 16384) (k : Fin 4), (posWord si bi b k).toNat < 64

/-- The sentence position of slot `k` of state `b`. -/
def pos (b : Fin 16384) (k : Fin 4) : Fin 64 := ⟨(posWord si bi b k).toNat % 64, Nat.mod_lt _ (by norm_num)⟩

theorem posWord_eq (h : InRange si bi) (b : Fin 16384) (k : Fin 4) :
    posWord si bi b k = BitVec.ofNat 32 (pos si bi b k).val := by
  have hv : (pos si bi b k).val = (posWord si bi b k).toNat := Nat.mod_eq_of_lt (h b k)
  rw [hv, BitVec.ofNat_toNat, BitVec.setWidth_eq]

/-- Slot `k` of state `b` is live (signed compares of 32-bit words). -/
def liveBit (b : Fin 16384) (k : Fin 4) : BitVec 1 :=
  if k.val < 3 then IntOp.cmpi .slt (BitVec.ofNat 32 k.val) (sl (ix1 b)) else IntOp.cmpi .slt 0#32 (bl (ix1 b))

/-- The live bit as the number 0 or 1. -/
def live (b : Fin 16384) (k : Fin 4) : EReal := (((liveBit sl bl b k).toNat : ℝ) : EReal)

/-- Column `d` of the feature of slot `k` of state `b`. -/
def feat (b : Fin 16384) (k : Fin 4) (d : Fin 250) : EReal := x (ix3 b (pos si bi b k) d) * live sl bl b k

/-- The transitions head: state `b`, output `n` of 4. -/
def outT (wt : FVec Ideal ⟨2, ![4, 1000]⟩ .f32) (bt : FVec Ideal ⟨1, ![4]⟩ .f32) : FVec Ideal ⟨2, ![16384, 4]⟩ .f32 :=
  fun i => entry2 (feat x si bi sl bl (i 0)) (fun k d => wt (ix2 (i 1) (flat k d))) (bt (ix1 (i 1)))

/-- The relations head: state `b`, output `n` of 50. -/
def outR (wr : FVec Ideal ⟨2, ![50, 1000]⟩ .f32) (br : FVec Ideal ⟨1, ![50]⟩ .f32) : FVec Ideal ⟨2, ![16384, 50]⟩ .f32 :=
  fun i => entry2 (feat x si bi sl bl (i 0)) (fun k d => wr (ix2 (i 1) (flat k d))) (br (ix1 (i 1)))

end

/-- The two weight matrices side by side, as the kernel's fused weight holds them: entry (slot `k`, column `d`, lane
    `n`) is the transitions weight of output `n` for lanes 0–3, the relations weight of output `n - 4` for lanes
    4–53, and zero on the padding lanes. -/
def wcat (wt : FVec Ideal ⟨2, ![4, 1000]⟩ .f32) (wr : FVec Ideal ⟨2, ![50, 1000]⟩ .f32) (k : Fin 4) (d : Fin 250) (n : Fin 128) : EReal :=
  if h : n.val < 4 then wt (ix2 (⟨n.val, h⟩ : Fin 4) (flat k d))
  else if h' : n.val < 54 then wr (ix2 (⟨n.val - 4, by omega⟩ : Fin 50) (flat k d)) else 0

/-- The two biases side by side, zero on the padding lanes. -/
def bcat (bt : FVec Ideal ⟨1, ![4]⟩ .f32) (br : FVec Ideal ⟨1, ![50]⟩ .f32) (n : Fin 128) : EReal :=
  if h : n.val < 4 then bt (ix1 (⟨n.val, h⟩ : Fin 4))
  else if h' : n.val < 54 then br (ix1 (⟨n.val - 4, by omega⟩ : Fin 50)) else 0

end Cert.Spec

end
-- ==== Proof.PreRange.lean ====
/-
  What the precondition says of the position words.

  Besides the finiteness of the float arguments, the precondition holds four conjuncts: every stack position word and
  every buffer position word is at least 0 and below 64, read as signed 32-bit numbers. A word in that signed range is
  below 64 as an unsigned number, which is how the specification states the range.
-/
import proofs.«409882_j15101105013315_3_alg».proof.Pre_finite_inputs
import proofs.«409882_j15101105013315_3_alg».proof.Proof.Gen.Pre_finite_inputs
import proofs.«409882_j15101105013315_3_alg».proof.Proof.Spec
import Idealize.ShloMosaic.Lib.ReduceAll
import Idealize.ShloMosaic.Lib.ValueIdx

noncomputable section

namespace Cert.PreRange

open Idealize.ShloMosaic Idealize.ShloMosaic.ValueIdx Cert.Spec Cert.Pre_finite_inputs

instance : Subsingleton S_.Idx := ⟨fun a b => funext fun d => d.elim0⟩

/-- A 32-bit word that, read signed, is at least 0 and below 64 is below 64 read unsigned. -/
theorem toNat_lt_of_signed (w : BitVec 32) (h0 : (0#32 : BitVec 32).toInt ≤ w.toInt) (h1 : w.toInt < (64#32 : BitVec 32).toInt) :
    w.toNat < 64 := by
  have e0 : (0#32 : BitVec 32).toInt = 0 := by decide
  have e1 : (64#32 : BitVec 32).toInt = 64 := by decide
  rw [e0] at h0
  rw [e1] at h1
  have hw := BitVec.toInt_eq_toNat_cond w
  have hlt := w.isLt
  split at hw <;> omega

/-- The precondition gives the range of every position word. -/
theorem inRange_of_pre {F : FTy → Type} [FloatOps F] (a0 : FVec F S16384x64x250 .f32) (a1 : FVec F S4x1000 .f32)
    (a2 : FVec F S4 .f32) (a3 : FVec F S50x1000 .f32) (a4 : FVec F S50 .f32) (a5 : IVec S16384x3 32)
    (a6 : IVec S16384x1 32) (a7 a8 : IVec S16384 32)
    (h : fn (F := F) a0 a1 a2 a3 a4 a5 a6 a7 a8 = (fun _ => 1#1)) : InRange a5 a6 := by
  have h0 := congrFun h ix0
  dsimp only [fn, fn_part1, fn_part2] at h0
  obtain ⟨h1, h38⟩ := IntOp.andi_eq_one.1 h0
  obtain ⟨h2, h34⟩ := IntOp.andi_eq_one.1 h1
  obtain ⟨h3, h30⟩ := IntOp.andi_eq_one.1 h2
  obtain ⟨_, h26⟩ := IntOp.andi_eq_one.1 h3
  intro b k
  unfold posWord
  split
  · rename_i hk
    have e0 := Host.reduce_andi_all _ _ _ _ ix0 h26 (ix2 b (⟨k.val, hk⟩ : Fin 3))
    have e1 := Host.reduce_andi_all _ _ _ _ ix0 h30 (ix2 b (⟨k.val, hk⟩ : Fin 3))
    exact toNat_lt_of_signed _ (IntOp.cmpi_sge.1 e0) (IntOp.cmpi_slt.1 e1)
  · have e0 := Host.reduce_andi_all _ _ _ _ ix0 h34 (ix2 b (0 : Fin 1))
    have e1 := Host.reduce_andi_all _ _ _ _ ix0 h38 (ix2 b (0 : Fin 1))
    exact toNat_lt_of_signed _ (IntOp.cmpi_sge.1 e0) (IntOp.cmpi_slt.1 e1)

end Cert.PreRange

end
-- ==== Proof.KBody.lean ====
/-
  One entry of what the kernel body leaves in each output block, over the extended reals.

  The body sees a block of 256 parser states: their LSTM outputs `x0` (256 × 64 × 250), their four position words `x1`
  and live factors `x2` (256 × 4 each), the fused weight `x3` (4 × 250 × 128) and the fused bias `x4` (1 × 128).
  For slot `k` it multiplies the indicator of "column index of the 64 equals the position word" by the live factor,
  spreads that over the 250 columns, multiplies by the LSTM outputs and sums over the 64 positions: when the word names
  position `q p k` that sum is the live factor times row `q p k`. Each slot's row goes through a 250 × 128 matrix
  product; the four products are added to zero one after the other, the bias is added and `tanh` taken. Lanes 0–3 are
  stored to the first output block, lanes 4–53 to the second.
-/
import proofs.«409882_j15101105013315_3_alg».proof.Proof.Gen.KernelIdeal.Frame
import proofs.«409882_j15101105013315_3_alg».proof.Proof.Spec
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Spec

/-- The word compare of two positions below 64, widened and converted, is the indicator of their equality. -/
theorem onehot_word (s q : Fin 64) :
    ((((IntOp.cmpi .eq (BitVec.ofNat 32 s.val) (BitVec.ofNat 32 q.val)).setWidth 32).toInt : ℝ) : EReal)
      = if s = q then (1 : EReal) else 0 := by
  by_cases h : s = q
  · subst h
    rw [if_pos rfl]
    have e : IntOp.cmpi .eq (BitVec.ofNat 32 s.val) (BitVec.ofNat 32 s.val) = 1#1 := by simp [IntOp.cmpi]
    rw [e]; simp
  · rw [if_neg h]
    have hne : BitVec.ofNat 32 s.val ≠ BitVec.ofNat 32 q.val := by
      intro e
      have e' := congrArg BitVec.toNat e
      simp only [BitVec.toNat_ofNat] at e'
      have hs := s.isLt
      have hq' := q.isLt
      rw [Nat.mod_eq_of_lt (by omega), Nat.mod_eq_of_lt (by omega)] at e'
      exact h (Fin.ext e')
    have hb : (BitVec.ofNat 32 s.val == BitVec.ofNat 32 q.val) = false := beq_eq_false_iff_ne.2 hne
    have e : IntOp.cmpi .eq (BitVec.ofNat 32 s.val) (BitVec.ofNat 32 q.val) = 0#1 := by simp [IntOp.cmpi, hb]
    rw [e]; simp

/-- One slot's selected row. The slot's column of the position words, compared with the column index of the 64
    positions, gives an indicator; times the slot's live factor, spread over the 250 columns, times the LSTM block and
    summed over the 64 positions it leaves the live factor times row `q p k`. -/
theorem sel_apply (v1 : IVec S256x4 32) (v3 : FVec Ideal S256x4 .f32) (v4 : FVec Ideal S256x64x250 .f32)
    (q : Fin 256 → Fin 4 → Fin 64) (hq : ∀ (p : Fin 256) (k : Fin 4), v1 (ix2 p k) = BitVec.ofNat 32 (q p k).val)
    (c : Nat) (hc : c < 4) (hs : S256x4.Slices ![0, c] S256x1) (p : Fin 256) (d : Fin 250) :
    multiReduction (F := Ideal) .add [1] S256x250
      (mulf (broadcastTo S256x64x250 (shapeCast S256x64x1 (mulf (sitofp .f32 (extui 32 (cmpi .eq
        (iota .tc S256x64 32 [1] iota_S256x64_d1_w32)
        (broadcastTo S256x64 (extractStridedSlice S256x1 ![0, c] v1 hs) broadcasts_S256x1_S256x64)) natLt_1_32))
        (broadcastTo S256x64 (extractStridedSlice S256x1 ![0, c] v3 hs) broadcasts_S256x1_S256x64))
        shapeCasts_S256x64_S256x64x1) broadcasts_S256x64x1_S256x64x250) v4)
      0x00000000#32 reduces_S256x64x250_S256x250 (.inl rfl) rfl (ix2 p d)
    = v3 (ix2 p (⟨c, hc⟩ : Fin 4)) * v4 (ix3 p (q p (⟨c, hc⟩ : Fin 4)) d) := by
  refine (Ideal.multiReduction_add_single _ 0x00000000#32 reduces_S256x64x250_S256x250 (.inl rfl) rfl (ix2 p d)).trans ?_
  show ∑ s : Fin 64, _ = _
  rw [← sum_onehot (q p (⟨c, hc⟩ : Fin 4)) (v3 (ix2 p (⟨c, hc⟩ : Fin 4))) (fun s => v4 (ix3 p s d))]
  refine Finset.sum_congr rfl fun s _ => ?_
  have hl : reduces_S256x64x250_S256x250.lift (ix2 p d) s = ix3 p s d := by
    funext a
    match a with
    | ⟨0, _⟩ => exact Fin.ext rfl
    | ⟨1, _⟩ => exact Fin.ext rfl
    | ⟨2, _⟩ => exact Fin.ext rfl
  rw [hl, mulf_apply]
  refine congrArg (· * v4 (ix3 p s d)) ?_
  -- the spread factor at (p, s, d) is the factor at (p, s)
  refine (broadcastTo_apply _ broadcasts_S256x64x1_S256x64x250 (ix3 p s d) (ix3 p s (0 : Fin 1)) (fun a => ?_)).trans ?_
  · match a with
    | ⟨0, _⟩ => rfl
    | ⟨1, _⟩ => rfl
    | ⟨2, _⟩ => rfl
  refine (shapeCast_apply _ shapeCasts_S256x64_S256x64x1 (ix3 p s (0 : Fin 1)) (ix2 p s) ?_).trans ?_
  · rw [Shape.rowMajor_val_two, Shape.rowMajor_val_three]
    show p.val * 64 + s.val = (p.val * 64 + s.val) * 1 + 0
    omega
  have hi : iota .tc S256x64 32 [1] iota_S256x64_d1_w32 (ix2 p s) = BitVec.ofNat 32 s.val :=
    iota_single_apply .tc S256x64 32 1 iota_S256x64_d1_w32 (ix2 p s)
  have hw : broadcastTo S256x64 (extractStridedSlice S256x1 ![0, c] v1 hs) broadcasts_S256x1_S256x64 (ix2 p s)
      = BitVec.ofNat 32 (q p (⟨c, hc⟩ : Fin 4)).val := by
    refine (broadcastTo_apply _ broadcasts_S256x1_S256x64 (ix2 p s) (ix2 p (0 : Fin 1)) (fun a => ?_)).trans ?_
    · match a with
      | ⟨0, _⟩ => rfl
      | ⟨1, _⟩ => rfl
    refine (extractStridedSlice_apply ![0, c] v1 hs (ix2 p (0 : Fin 1)) (ix2 p (⟨c, hc⟩ : Fin 4)) (fun a => ?_)).trans (hq p _)
    match a with
    | ⟨0, _⟩ => exact (Nat.zero_add p.val).symm
    | ⟨1, _⟩ => rfl
  have hm : broadcastTo S256x64 (extractStridedSlice S256x1 ![0, c] v3 hs) broadcasts_S256x1_S256x64 (ix2 p s)
      = v3 (ix2 p (⟨c, hc⟩ : Fin 4)) := by
    refine (broadcastTo_apply _ broadcasts_S256x1_S256x64 (ix2 p s) (ix2 p (0 : Fin 1)) (fun a => ?_)).trans ?_
    · match a with
      | ⟨0, _⟩ => rfl
      | ⟨1, _⟩ => rfl
    refine extractStridedSlice_apply ![0, c] v3 hs (ix2 p (0 : Fin 1)) (ix2 p (⟨c, hc⟩ : Fin 4)) (fun a => ?_)
    match a with
    | ⟨0, _⟩ => exact (Nat.zero_add p.val).symm
    | ⟨1, _⟩ => rfl
  show ((((IntOp.cmpi .eq (iota .tc S256x64 32 [1] iota_S256x64_d1_w32 (ix2 p s))
      (broadcastTo S256x64 (extractStridedSlice S256x1 ![0, c] v1 hs) broadcasts_S256x1_S256x64 (ix2 p s))).setWidth 32).toInt : ℝ) : EReal)
      * broadcastTo S256x64 (extractStridedSlice S256x1 ![0, c] v3 hs) broadcasts_S256x1_S256x64 (ix2 p s) = _
  rw [hi, hw, hm, onehot_word]

/-! The 256 × 250 by 250 × 128 matrix product, read at an index. -/

/-- The left operand's row is the output's row. -/
theorem lhs_mm_0 (i : S256x128.Idx) (r : dot_S256x250_S250x128_S256x128_1_0_0_1_n_n.contr.Idx) :
    (dot_S256x250_S250x128_S256x128_1_0_0_1_n_n.lhsIdx i r 0).val = (i 0).val := by
  unfold DotDims.lhsIdx
  rw [dif_neg (show ¬(0 : Fin S256x250.rank) ∈ dot_S256x250_S250x128_S256x128_1_0_0_1_n_n.lhsBatch by decide), dif_pos (show (0 : Fin S256x250.rank) ∈ dot_S256x250_S250x128_S256x128_1_0_0_1_n_n.lhsNonContracting by decide)]
  rfl
/-- The left operand's column is the contraction coordinate. -/
theorem lhs_mm_1 (i : S256x128.Idx) (r : dot_S256x250_S250x128_S256x128_1_0_0_1_n_n.contr.Idx) :
    (dot_S256x250_S250x128_S256x128_1_0_0_1_n_n.lhsIdx i r 1).val = (r ⟨0, by decide⟩).val :=
  dot_S256x250_S250x128_S256x128_1_0_0_1_n_n.lhsIdx_val_of_single rfl i r
/-- The right operand's row is the contraction coordinate. -/
theorem rhs_mm_0 (i : S256x128.Idx) (r : dot_S256x250_S250x128_S256x128_1_0_0_1_n_n.contr.Idx) :
    (dot_S256x250_S250x128_S256x128_1_0_0_1_n_n.rhsIdx i r 0).val = (r ⟨0, by decide⟩).val :=
  dot_S256x250_S250x128_S256x128_1_0_0_1_n_n.rhsIdx_val_of_single rfl i r
/-- The right operand's column is the output's column. -/
theorem rhs_mm_1 (i : S256x128.Idx) (r : dot_S256x250_S250x128_S256x128_1_0_0_1_n_n.contr.Idx) :
    (dot_S256x250_S250x128_S256x128_1_0_0_1_n_n.rhsIdx i r 1).val = (i 1).val := by
  unfold DotDims.rhsIdx
  rw [dif_neg (show ¬(1 : Fin S250x128.rank) ∈ dot_S256x250_S250x128_S256x128_1_0_0_1_n_n.rhsBatch by decide), dif_pos (show (1 : Fin S250x128.rank) ∈ dot_S256x250_S250x128_S256x128_1_0_0_1_n_n.rhsNonContracting by decide)]
  rfl

/-- Entry (p, n) of the product into a zero accumulator is the inner product of row `p` and column `n`. -/
theorem mm_apply (a : FVec Ideal S256x250 .f32) (b : FVec Ideal S250x128 .f32) (p : Fin 256) (n : Fin 128) :
    matmul dot_S256x250_S250x128_S256x128_1_0_0_1_n_n none a b (constant (F := Ideal) S256x128 .f32 0x00000000#32) (ix2 p n)
      = ∑ d : Fin 250, a (ix2 p d) * b (ix2 d n) := by
  simp only [matmul]
  rw [Ideal.matmul_constant_zero_apply, ← Equiv.sum_comp (contrEquiv1 dot_S256x250_S250x128_S256x128_1_0_0_1_n_n 250 rfl rfl).symm]
  refine Finset.sum_congr rfl fun k _ => ?_
  have hk := contrEquiv1_symm_val dot_S256x250_S250x128_S256x128_1_0_0_1_n_n 250 rfl rfl k
  have el : dot_S256x250_S250x128_S256x128_1_0_0_1_n_n.lhsIdx (ix2 p n) ((contrEquiv1 dot_S256x250_S250x128_S256x128_1_0_0_1_n_n 250 rfl rfl).symm k) = ix2 p k := funext fun a => Fin.ext (by
    match a with
    | ⟨0, _⟩ => exact lhs_mm_0 _ _
    | ⟨1, _⟩ => exact (lhs_mm_1 _ _).trans hk)
  have er : dot_S256x250_S250x128_S256x128_1_0_0_1_n_n.rhsIdx (ix2 p n) ((contrEquiv1 dot_S256x250_S250x128_S256x128_1_0_0_1_n_n 250 rfl rfl).symm k) = ix2 k n := funext fun a => Fin.ext (by
    match a with
    | ⟨0, _⟩ => exact (rhs_mm_0 _ _).trans hk
    | ⟨1, _⟩ => exact rhs_mm_1 _ _)
  rw [el, er]

/-- Slice `c` of the fused weight, viewed as a 250 × 128 matrix. -/
theorem wslice_apply (v6 : FVec Ideal S4x250x128 .f32) (c : Nat) (hc : c < 4) (hs : S4x250x128.Slices ![c, 0, 0] S1x250x128)
    (d : Fin 250) (n : Fin 128) :
    shapeCast S250x128 (extractStridedSlice S1x250x128 ![c, 0, 0] v6 hs) shapeCasts_S1x250x128_S250x128 (ix2 d n)
      = v6 (ix3 (⟨c, hc⟩ : Fin 4) d n) := by
  refine (shapeCast_apply _ shapeCasts_S1x250x128_S250x128 (ix2 d n) (ix3 (0 : Fin 1) d n) ?_).trans ?_
  · rw [Shape.rowMajor_val_two, Shape.rowMajor_val_three]
    show (0 * 250 + d.val) * 128 + n.val = d.val * 128 + n.val
    omega
  refine extractStridedSlice_apply ![c, 0, 0] v6 hs (ix3 (0 : Fin 1) d n) (ix3 (⟨c, hc⟩ : Fin 4) d n) (fun a => ?_)
  match a with
  | ⟨0, _⟩ => rfl
  | ⟨1, _⟩ => exact (Nat.zero_add d.val).symm
  | ⟨2, _⟩ => exact (Nat.zero_add n.val).symm

/-- One slot's contribution to the 256 × 128 pre-activation: the slot's selected rows times the slot's weight slice. -/
def slotVal (v1 : IVec S256x4 32) (v3 : FVec Ideal S256x4 .f32) (v4 : FVec Ideal S256x64x250 .f32)
    (v6 : FVec Ideal S4x250x128 .f32) (c : Nat) (hs : S256x4.Slices ![0, c] S256x1)
    (hs' : S4x250x128.Slices ![c, 0, 0] S1x250x128) : FVec Ideal S256x128 .f32 :=
  matmul dot_S256x250_S250x128_S256x128_1_0_0_1_n_n none
    (multiReduction (F := Ideal) .add [1] S256x250
      (mulf (broadcastTo S256x64x250 (shapeCast S256x64x1 (mulf (sitofp .f32 (extui 32 (cmpi .eq
        (iota .tc S256x64 32 [1] iota_S256x64_d1_w32)
        (broadcastTo S256x64 (extractStridedSlice S256x1 ![0, c] v1 hs) broadcasts_S256x1_S256x64)) natLt_1_32))
        (broadcastTo S256x64 (extractStridedSlice S256x1 ![0, c] v3 hs) broadcasts_S256x1_S256x64))
        shapeCasts_S256x64_S256x64x1) broadcasts_S256x64x1_S256x64x250) v4)
      0x00000000#32 reduces_S256x64x250_S256x250 (.inl rfl) rfl)
    (shapeCast S250x128 (extractStridedSlice S1x250x128 ![c, 0, 0] v6 hs') shapeCasts_S1x250x128_S250x128)
    (constant (F := Ideal) S256x128 .f32 0x00000000#32)

/-- Entry (p, n) of a slot's contribution: the inner product over the 250 columns of the live factor times row
    `q p k` with lane `n` of the slot's weight slice. -/
theorem slotVal_apply (v1 : IVec S256x4 32) (v3 : FVec Ideal S256x4 .f32) (v4 : FVec Ideal S256x64x250 .f32)
    (v6 : FVec Ideal S4x250x128 .f32)
    (q : Fin 256 → Fin 4 → Fin 64) (hq : ∀ (p : Fin 256) (k : Fin 4), v1 (ix2 p k) = BitVec.ofNat 32 (q p k).val)
    (c : Nat) (hc : c < 4) (hs : S256x4.Slices ![0, c] S256x1) (hs' : S4x250x128.Slices ![c, 0, 0] S1x250x128)
    (p : Fin 256) (n : Fin 128) :
    slotVal v1 v3 v4 v6 c hs hs' (ix2 p n)
      = ∑ d : Fin 250, (v3 (ix2 p (⟨c, hc⟩ : Fin 4)) * v4 (ix3 p (q p (⟨c, hc⟩ : Fin 4)) d)) * v6 (ix3 (⟨c, hc⟩ : Fin 4) d n) := by
  unfold slotVal
  refine (mm_apply _ _ p n).trans ?_
  refine Finset.sum_congr rfl fun d _ => ?_
  rw [sel_apply v1 v3 v4 q hq c hc hs p d, wslice_apply v6 c hc hs' d n]

/-- The running sum after slot 0: zero plus slot 0's contribution. -/
theorem pay8_eq (x0 : Vec Ideal S256x64x250 .f32) (x1 : Vec Ideal S256x4 .i32) (x2 : Vec Ideal S256x4 .f32)
    (x3 : Vec Ideal S4x250x128 .f32) :
    k0_pay8 (F := Ideal) x1 x2 x0 x3
      = addf (broadcast S256x128 (Scalar.ofBits (F := Ideal) .f32 0x00000000#32))
          (slotVal (k0_pay4 (F := Ideal) x1) (k0_pay5 x2) x0 (k0_pay6 x3) 0 slices_S256x4_o0_0_S256x1 slices_S4x250x128_o0_0_0_S1x250x128) := rfl

/-- Slot 1's contribution. -/
theorem pay9_eq (x0 : Vec Ideal S256x64x250 .f32) (x1 : Vec Ideal S256x4 .i32) (x2 : Vec Ideal S256x4 .f32)
    (x3 : Vec Ideal S4x250x128 .f32) :
    k0_pay9 (F := Ideal) x1 x2 x0 x3
      = slotVal (k0_pay4 (F := Ideal) x1) (k0_pay5 x2) x0 (k0_pay6 x3) 1 slices_S256x4_o0_1_S256x1 slices_S4x250x128_o1_0_0_S1x250x128 := rfl

/-- The fused head: `tanh` of the running sum of slots 0 and 1, plus slots 2 and 3, plus the bias row spread over the
    256 states. -/
theorem pay1_eq (v1 : IVec S256x4 32) (v3 : FVec Ideal S256x4 .f32) (v4 : Vec Ideal S256x64x250 .f32)
    (v6 : FVec Ideal S4x250x128 .f32) (v8 : FVec Ideal S1x128 .f32) (v26 v41 : FVec Ideal S256x128 .f32) :
    k0_pay1 (F := Ideal) v1 v3 v4 v6 v8 (iota .tc S256x64 32 [1] iota_S256x64_d1_w32) v26 v41
      = tanh (addf (addf (addf (addf v26 v41)
          (slotVal v1 v3 v4 v6 2 slices_S256x4_o0_2_S256x1 slices_S4x250x128_o2_0_0_S1x250x128))
          (slotVal v1 v3 v4 v6 3 slices_S256x4_o0_3_S256x1 slices_S4x250x128_o3_0_0_S1x250x128))
          (broadcastTo S256x128 v8 broadcasts_S1x128_S256x128)) := rfl

/-- Lane `n` of the fused head at state `p`: `tanh` of the four slots' inner products and the bias. -/
theorem pay1_apply (x0 : Vec Ideal S256x64x250 .f32) (x1 : Vec Ideal S256x4 .i32) (x2 : Vec Ideal S256x4 .f32)
    (x3 : Vec Ideal S4x250x128 .f32) (x4 : Vec Ideal S1x128 .f32) (q : Fin 256 → Fin 4 → Fin 64)
    (hq : ∀ (p : Fin 256) (k : Fin 4), x1 (ix2 p k) = BitVec.ofNat 32 (q p k).val) (p : Fin 256) (n : Fin 128) :
    k0_pay1 (F := Ideal) (k0_pay4 (F := Ideal) x1) (k0_pay5 x2) x0 (k0_pay6 x3) (k0_pay7 x4)
        (iota .tc S256x64 32 [1] iota_S256x64_d1_w32) (k0_pay8 x1 x2 x0 x3) (k0_pay9 x1 x2 x0 x3) (ix2 p n)
      = entry2 (fun k d => x2 (ix2 p k) * x0 (ix3 p (q p k) d)) (fun k d => x3 (ix3 k d n)) (x4 (ix2 (0 : Fin 1) n)) := by
  have e4 : k0_pay4 (F := Ideal) x1 = x1 := shapeCast_self x1 shapeCasts_S256x4_S256x4
  have e5 : k0_pay5 (F := Ideal) x2 = x2 := shapeCast_self x2 shapeCasts_S256x4_S256x4
  have e6 : k0_pay6 (F := Ideal) x3 = x3 := shapeCast_self x3 shapeCasts_S4x250x128_S4x250x128
  have e7 : k0_pay7 (F := Ideal) x4 = x4 := shapeCast_self x4 shapeCasts_S1x128_S1x128
  have hb : broadcastTo S256x128 x4 broadcasts_S1x128_S256x128 (ix2 p n) = x4 (ix2 (0 : Fin 1) n) :=
    broadcastTo_apply x4 broadcasts_S1x128_S256x128 (ix2 p n) (ix2 (0 : Fin 1) n) (fun a => by
      match a with
      | ⟨0, _⟩ => rfl
      | ⟨1, _⟩ => rfl)
  rw [pay1_eq, pay8_eq, pay9_eq, e4, e5, e6, e7]
  show Ideal.tanh (((((Ideal.ofBits .f32 0x00000000#32
      + slotVal x1 x2 x0 x3 0 slices_S256x4_o0_0_S256x1 slices_S4x250x128_o0_0_0_S1x250x128 (ix2 p n))
      + slotVal x1 x2 x0 x3 1 slices_S256x4_o0_1_S256x1 slices_S4x250x128_o1_0_0_S1x250x128 (ix2 p n))
      + slotVal x1 x2 x0 x3 2 slices_S256x4_o0_2_S256x1 slices_S4x250x128_o2_0_0_S1x250x128 (ix2 p n))
      + slotVal x1 x2 x0 x3 3 slices_S256x4_o0_3_S256x1 slices_S4x250x128_o3_0_0_S1x250x128 (ix2 p n))
      + broadcastTo S256x128 x4 broadcasts_S1x128_S256x128 (ix2 p n)) = _
  rw [hb, Ideal.ofBits_zero_f32, zero_add,
    slotVal_apply x1 x2 x0 x3 q hq 0 (by decide) _ _ p n, slotVal_apply x1 x2 x0 x3 q hq 1 (by decide) _ _ p n,
    slotVal_apply x1 x2 x0 x3 q hq 2 (by decide) _ _ p n, slotVal_apply x1 x2 x0 x3 q hq 3 (by decide) _ _ p n]
  unfold entry2
  rw [Fin.sum_univ_four]
  rfl

/-- The first output block is lanes 0–3 of the fused head. -/
theorem pay2_eq (v1 : IVec S256x4 32) (v3 : FVec Ideal S256x4 .f32) (v4 : Vec Ideal S256x64x250 .f32)
    (v6 : FVec Ideal S4x250x128 .f32) (v8 : FVec Ideal S1x128 .f32) (v9 : IVec S256x64 32) (v26 v41 : FVec Ideal S256x128 .f32) :
    k0_pay2 (F := Ideal) v1 v3 v4 v6 v8 v9 v26 v41
      = extractStridedSlice S256x4 ![0, 0] (k0_pay1 (F := Ideal) v1 v3 v4 v6 v8 v9 v26 v41) slices_S256x128_o0_0_S256x4 := rfl

/-- The second output block is lanes 4–53 of the fused head. -/
theorem pay3_eq (v1 : IVec S256x4 32) (v3 : FVec Ideal S256x4 .f32) (v4 : Vec Ideal S256x64x250 .f32)
    (v6 : FVec Ideal S4x250x128 .f32) (v8 : FVec Ideal S1x128 .f32) (v9 : IVec S256x64 32) (v26 v41 : FVec Ideal S256x128 .f32) :
    k0_pay3 (F := Ideal) v1 v3 v4 v6 v8 v9 v26 v41
      = extractStridedSlice S256x50 ![0, 4] (k0_pay1 (F := Ideal) v1 v3 v4 v6 v8 v9 v26 v41) slices_S256x128_o0_4_S256x50 := rfl

/-- Entry (state `p` of the block, output `n` of 4) of the first output block. -/
theorem out5_apply (x0 : Vec Ideal S256x64x250 .f32) (x1 : Vec Ideal S256x4 .i32) (x2 : Vec Ideal S256x4 .f32)
    (x3 : Vec Ideal S4x250x128 .f32) (x4 : Vec Ideal S1x128 .f32) (q : Fin 256 → Fin 4 → Fin 64)
    (hq : ∀ (p : Fin 256) (k : Fin 4), x1 (ix2 p k) = BitVec.ofNat 32 (q p k).val)
    (p : Fin 256) (n : Fin 4) :
    out0_5 (F := Ideal) x0 x1 x2 x3 x4 (ix2 p n) =
      entry2 (fun k d => x2 (ix2 p k) * x0 (ix3 p (q p k) d))
        (fun k d => x3 (ix3 k d (⟨n.val, by have := n.isLt; omega⟩ : Fin 128)))
        (x4 (ix2 (0 : Fin 1) (⟨n.val, by have := n.isLt; omega⟩ : Fin 128))) := by
  have hz2 : (![0, 0] : Fin 2 → Nat) = fun _ => 0 := by
    funext a
    match a with
    | ⟨0, _⟩ => rfl
    | ⟨1, _⟩ => rfl
  have hz3 : (![0, 0, 0] : Fin 3 → Nat) = fun _ => 0 := by
    funext a
    match a with
    | ⟨0, _⟩ => rfl
    | ⟨1, _⟩ => rfl
    | ⟨2, _⟩ => rfl
  unfold out0_5
  rw [View.canon_unit_zero hz2]
  simp only [View.ld_unit_zero (S := S256x4) hz2, View.ld_unit_zero (S := S1x128) hz2,
    View.ld_unit_zero (S := S256x64x250) hz3, View.ld_unit_zero (S := S4x250x128) hz3]
  rw [pay2_eq]
  refine Eq.trans (extractStridedSlice_apply ![0, 0] _ slices_S256x128_o0_0_S256x4 (ix2 p n)
    (ix2 p (⟨n.val, by have := n.isLt; omega⟩ : Fin 128)) (fun a => ?_)) ?_
  · match a with
    | ⟨0, _⟩ => exact (Nat.zero_add p.val).symm
    | ⟨1, _⟩ => exact (Nat.zero_add n.val).symm
  exact pay1_apply x0 x1 x2 x3 x4 q hq p _

/-- Entry (state `p` of the block, output `n` of 50) of the second output block: lane `n + 4` of the fused head. -/
theorem out6_apply (x0 : Vec Ideal S256x64x250 .f32) (x1 : Vec Ideal S256x4 .i32) (x2 : Vec Ideal S256x4 .f32)
    (x3 : Vec Ideal S4x250x128 .f32) (x4 : Vec Ideal S1x128 .f32) (q : Fin 256 → Fin 4 → Fin 64)
    (hq : ∀ (p : Fin 256) (k : Fin 4), x1 (ix2 p k) = BitVec.ofNat 32 (q p k).val)
    (p : Fin 256) (n : Fin 50) :
    out0_6 (F := Ideal) x0 x1 x2 x3 x4 (ix2 p n) =
      entry2 (fun k d => x2 (ix2 p k) * x0 (ix3 p (q p k) d))
        (fun k d => x3 (ix3 k d (⟨n.val + 4, by have := n.isLt; omega⟩ : Fin 128)))
        (x4 (ix2 (0 : Fin 1) (⟨n.val + 4, by have := n.isLt; omega⟩ : Fin 128))) := by
  have hz2 : (![0, 0] : Fin 2 → Nat) = fun _ => 0 := by
    funext a
    match a with
    | ⟨0, _⟩ => rfl
    | ⟨1, _⟩ => rfl
  have hz3 : (![0, 0, 0] : Fin 3 → Nat) = fun _ => 0 := by
    funext a
    match a with
    | ⟨0, _⟩ => rfl
    | ⟨1, _⟩ => rfl
    | ⟨2, _⟩ => rfl
  unfold out0_6
  rw [View.canon_unit_zero hz2]
  simp only [View.ld_unit_zero (S := S256x4) hz2, View.ld_unit_zero (S := S1x128) hz2,
    View.ld_unit_zero (S := S256x64x250) hz3, View.ld_unit_zero (S := S4x250x128) hz3]
  rw [pay3_eq]
  refine Eq.trans (extractStridedSlice_apply ![0, 4] _ slices_S256x128_o0_4_S256x50 (ix2 p n)
    (ix2 p (⟨n.val + 4, by have := n.isLt; omega⟩ : Fin 128)) (fun a => ?_)) ?_
  · match a with
    | ⟨0, _⟩ => exact (Nat.zero_add p.val).symm
    | ⟨1, _⟩ => exact Nat.add_comm n.val 4
  exact pay1_apply x0 x1 x2 x3 x4 q hq p _

end Cert.KernelIdeal.Body

end
-- ==== Proof.KHost.lean ====
/-
  The arrays the kernel's region finds, as functions of the program's arguments.

  Before the region the program joins the stack and buffer position words into one 16384 × 4 array and clamps each to
  [0, 63]; it builds the 16384 × 4 array of live factors from the two length vectors; it lays the transposed weight
  matrices side by side into a zero 4 × 250 × 128 array (transitions in lanes 0–3, relations in lanes 4–53), and the
  two biases side by side into a zero 1 × 128 array. Read at an index these are the specification's `posWord`
  (the clamp does nothing to a word already in range), `live`, `wcat` and `bcat`.
-/
import proofs.«409882_j15101105013315_3_alg».proof.Proof.Gen.KernelIdeal.Frame
import proofs.«409882_j15101105013315_3_alg».proof.Proof.Spec
import Idealize.ShloMosaic.Lib.ValueIdx
import Idealize.ShloMosaic.Lib.Pipeline.Value
import Idealize.ShloMosaic.Lib.StableHlo.Run
import Idealize.ShloMosaic.Lib.StableHlo.Predicate
import Idealize.ShloMosaic.PureOps.Ideal.Laws

noncomputable section

namespace Cert.KernelIdeal.HostSide

open Cert.KernelIdeal Cert.KernelIdeal.Gen Idealize.ShloMosaic Idealize.ShloMosaic.TcCoe Idealize.ShloMosaic.ValueIdx Cert.Spec

variable (m : (ℓ : Loc nD τ sig) → Buf (Elt Ideal) ℓ) (c : Dev nD)

/-- The program's argument arrays on core `c`. -/
abbrev a0 : FVec Ideal S16384x64x250 .f32 := m ((c : Thread nD τ).loc main_arg0)
abbrev a1 : FVec Ideal S4x1000 .f32 := m ((c : Thread nD τ).loc main_arg1)
abbrev a2 : FVec Ideal S4 .f32 := m ((c : Thread nD τ).loc main_arg2)
abbrev a3 : FVec Ideal S50x1000 .f32 := m ((c : Thread nD τ).loc main_arg3)
abbrev a4 : FVec Ideal S50 .f32 := m ((c : Thread nD τ).loc main_arg4)
abbrev a5 : IVec S16384x3 32 := m ((c : Thread nD τ).loc main_arg5)
abbrev a6 : IVec S16384x1 32 := m ((c : Thread nD τ).loc main_arg6)
abbrev a7 : IVec S16384 32 := m ((c : Thread nD τ).loc main_arg7)
abbrev a8 : IVec S16384 32 := m ((c : Thread nD τ).loc main_arg8)

/-! ## A scatter that sets a window, read at an index

A scatter whose body returns the update SETS the elements its updates land on. The scatter is a left fold over the update's indices in
row-major order, each step rewriting the one element its update lands on; read at ONE element of the result it is
the operand where no update lands, and the update that lands there when exactly one does. -/

section Scatter
variable {α : Type} {s si u : Shape} {w : Nat}

/-- One step of a scatter's fold: the update at row-major position `n` applied to `r`. -/
def scatterStep (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- A scatter is the fold of its steps over the update's row-major positions. -/
theorem scatter_eq_foldl (d : ScatterDims s si u) (f : α → α → α) (x : s.Idx → α) (idx : IVec si w) (upd : u.Idx → α) :
    Host.scatter d f x idx upd = (List.finRange u.numel).foldl (scatterStep d f idx upd) x := rfl

/-- A step whose update does not land on `i` leaves `i` alone. -/
theorem scatterStep_of_ne (d : ScatterDims s si u) (f : α → α → α) (idx : IVec si w) (upd : u.Idx → α)
    (r : s.Idx → α) (n : Fin u.numel) (i : s.Idx) (h : d.resultIdx? (u.rowMajor.symm n) idx ≠ some i) :
    scatterStep d f idx upd r n i = r i := by
  unfold scatterStep
  cases h0 : d.resultIdx? (u.rowMajor.symm n) idx with
  | none => rfl
  | some i0 =>
    show (if i = i0 then _ else r i) = r i
    rw [if_neg]
    intro e
    exact h (by rw [h0, e])

/-- A setting step whose update lands on `i` leaves the update there. -/
theorem scatterStep_set_of_eq (d : ScatterDims s si u) (idx : IVec si w) (upd : u.Idx → α)
    (r : s.Idx → α) (n : Fin u.numel) (i : s.Idx) (h : d.resultIdx? (u.rowMajor.symm n) idx = some i) :
    scatterStep d (fun _ b => b) idx upd r n i = upd (u.rowMajor.symm n) := by
  unfold scatterStep
  rw [h]
  exact if_pos rfl

/-- Steps none of whose updates lands on `i` leave `i` alone. -/
theorem foldl_scatterStep_of_ne (d : ScatterDims s si u) (f : α → α → α) (idx : IVec si w) (upd : u.Idx → α) (i : s.Idx) :
    ∀ (l : List (Fin u.numel)) (r : s.Idx → α), (∀ n ∈ l, d.resultIdx? (u.rowMajor.symm n) idx ≠ some i) →
      l.foldl (scatterStep d f idx upd) r i = r i
  | [], _, _ => rfl
  | n :: l, r, h => by
    rw [List.foldl_cons, foldl_scatterStep_of_ne d f idx upd i l _ fun n' hn' => h n' (List.mem_cons_of_mem _ hn')]
    exact scatterStep_of_ne d f idx upd r n i (h n List.mem_cons_self)

/-- Setting steps exactly one of whose updates, the one at `j`, lands on `i` leave that update there. -/
theorem foldl_scatterStep_set_of_mem (d : ScatterDims s si u) (idx : IVec si w) (upd : u.Idx → α) (i : s.Idx) (j : u.Idx)
    (hj : d.resultIdx? j idx = some i) (huniq : ∀ j', d.resultIdx? j' idx = some i → j' = j) :
    ∀ (l : List (Fin u.numel)) (r : s.Idx → α), u.rowMajor j ∈ l →
      l.foldl (scatterStep d (fun _ b => b) idx upd) r i = upd j
  | [], _, h => absurd h List.not_mem_nil
  | n :: l, r, h => by
    rw [List.foldl_cons]
    by_cases hm : u.rowMajor j ∈ l
    · exact foldl_scatterStep_set_of_mem d idx upd i j hj huniq l _ hm
    · have hn : n = u.rowMajor j := by
        rcases List.mem_cons.1 h with h | h
        · exact h.symm
        · exact absurd h hm
      rw [foldl_scatterStep_of_ne d _ idx upd i l _ fun n' hn' e => hm (by
        have e' := huniq _ e
        rw [← e', Equiv.apply_symm_apply]
        exact hn')]
      rw [scatterStep_set_of_eq d idx upd r n i (by rw [hn, Equiv.symm_apply_apply]; exact hj), hn,
        Equiv.symm_apply_apply]

/-- A scatter leaves alone every element no update lands on. -/
theorem scatter_apply_of_not_hit (d : ScatterDims s si u) (f : α → α → α) (x : s.Idx → α) (idx : IVec si w)
    (upd : u.Idx → α) (i : s.Idx) (hi : ∀ j : u.Idx, d.resultIdx? j idx ≠ some i) :
    Host.scatter d f x idx upd i = x i := by
  rw [scatter_eq_foldl]
  exact foldl_scatterStep_of_ne d f idx upd i _ x fun n _ => hi _

/-- A SETTING scatter (the body returns the update) every one of whose updates lands inside the
    operand, update index `j` at `emb j` with `emb` one-to-one, reads at `emb j` the update at `j` … -/
theorem scatter_set_emb (d : ScatterDims s si u) (x : s.Idx → α) (idx : IVec si w) (upd : u.Idx → α)
    (emb : u.Idx → s.Idx) (hemb : Function.Injective emb) (hres : ∀ j, d.resultIdx? j idx = some (emb j)) (j : u.Idx) :
    Host.scatter d (fun _ b => b) x idx upd (emb j) = upd j := by
  rw [scatter_eq_foldl]
  exact foldl_scatterStep_set_of_mem d idx upd (emb j) j (hres j)
    (fun j' h => hemb (Option.some.inj ((hres j').symm.trans h))) _ x (List.mem_finRange _)

/-- … and off the image of `emb` the operand. -/
theorem scatter_off_emb (d : ScatterDims s si u) (f : α → α → α) (x : s.Idx → α) (idx : IVec si w) (upd : u.Idx → α)
    (emb : u.Idx → s.Idx) (hres : ∀ j, d.resultIdx? j idx = some (emb j)) (i : s.Idx) (hi : ∀ j, emb j ≠ i) :
    Host.scatter d f x idx upd i = x i :=
  scatter_apply_of_not_hit d f x idx upd i fun j h => hi j (Option.some.inj ((hres j).symm.trans h))

end Scatter

/-! ### A window along the last axis of a rank-3 array, at a constant start

The update has the operand's extents on axes 0 and 1 and `K` positions on axis 2; the one start index, `off`, is for
axis 2. Update index (p, q, r) lands at (p, q, off + r). -/

section Window3
variable {n0 n1 N K : Nat} (d : ScatterDims ⟨3, ![n0, n1, N]⟩ ⟨1, ![1]⟩ ⟨3, ![n0, n1, K]⟩)

/-- The window coordinate on each axis is the update index's. -/
theorem window_last3 (hu : d.updateWindowDims = [0, 1, 2]) (hi : d.insertedWindowDims = [])
    (j : (⟨3, ![n0, n1, K]⟩ : Shape).Idx) :
    d.window j 0 = (j 0).val ∧ d.window j 1 = (j 1).val ∧ d.window j 2 = (j 2).val := by
  obtain ⟨uw, iw, sd, iv, wf⟩ := d
  change uw = _ at hu
  change iw = _ at hi
  subst hu hi
  refine ⟨?_, ?_, ?_⟩
  · unfold ScatterDims.window
    rw [dif_pos (by
      show (0 : Fin 3) ∈ (List.finRange 3).filter (fun a => decide (a ∉ ([] : List (Fin 3))))
      decide)]
    rfl
  · unfold ScatterDims.window
    rw [dif_pos (by
      show (1 : Fin 3) ∈ (List.finRange 3).filter (fun a => decide (a ∉ ([] : List (Fin 3))))
      decide)]
    rfl
  · unfold ScatterDims.window
    rw [dif_pos (by
      show (2 : Fin 3) ∈ (List.finRange 3).filter (fun a => decide (a ∉ ([] : List (Fin 3))))
      decide)]
    rfl

/-- The window starts at 0 on axes 0 and 1 and at `off` on axis 2. -/
theorem start_last3 (hs : d.scatterDimsToOperandDims = [2]) (idx : IVec ⟨1, ![1]⟩ 32) (off : Nat)
    (hidx : ∀ q, idx q = BitVec.ofNat 32 off) (hoff : off < 2 ^ 31) (j : (⟨3, ![n0, n1, K]⟩ : Shape).Idx) :
    d.start j idx 0 = 0 ∧ d.start j idx 1 = 0 ∧ d.start j idx 2 = (off : Int) := by
  refine ⟨?_, ?_, ?_⟩
  · unfold ScatterDims.start
    rw [dif_neg (by rw [hs]; show (0 : Fin 3) ∉ ([2] : List (Fin 3)); decide)]
  · unfold ScatterDims.start
    rw [dif_neg (by rw [hs]; show (1 : Fin 3) ∉ ([2] : List (Fin 3)); decide)]
  · unfold ScatterDims.start
    rw [dif_pos (by rw [hs]; show (2 : Fin 3) ∈ ([2] : List (Fin 3)); decide), hidx]
    exact StableHlo.Predicate.toInt_ofNat_small off hoff

/-- Update index (p, q, r) lands at (p, q, off + r), inside the operand. -/
theorem resultIdx_last3 (hu : d.updateWindowDims = [0, 1, 2]) (hi : d.insertedWindowDims = [])
    (hs : d.scatterDimsToOperandDims = [2]) (idx : IVec ⟨1, ![1]⟩ 32) (off : Nat)
    (hidx : ∀ q, idx q = BitVec.ofNat 32 off) (hoff : off + K ≤ N) (hN : N < 2 ^ 31)
    (j : (⟨3, ![n0, n1, K]⟩ : Shape).Idx) :
    d.resultIdx? j idx
      = some (ix3 (j 0) (j 1) (⟨off + (j 2).val, by have : (j 2).val < K := (j 2).isLt; omega⟩ : Fin N)) := by
  obtain ⟨w0, w1, w2⟩ := window_last3 d hu hi j
  obtain ⟨s0, s1, s2⟩ := start_last3 d hs idx off hidx (by omega) j
  have l0 : (j 0).val < n0 := (j 0).isLt
  have l1 : (j 1).val < n1 := (j 1).isLt
  have l2 : (j 2).val < K := (j 2).isLt
  have z0 : (⟨3, ![n0, n1, N]⟩ : Shape).size 0 = n0 := rfl
  have z1 : (⟨3, ![n0, n1, N]⟩ : Shape).size 1 = n1 := rfl
  have z2 : (⟨3, ![n0, n1, N]⟩ : Shape).size 2 = N := rfl
  have H0 : 0 ≤ d.start j idx 0 + d.window j 0
      ∧ d.start j idx 0 + d.window j 0 < (⟨3, ![n0, n1, N]⟩ : Shape).size 0 := by
    rw [s0, w0, z0]; omega
  have H1 : 0 ≤ d.start j idx 1 + d.window j 1
      ∧ d.start j idx 1 + d.window j 1 < (⟨3, ![n0, n1, N]⟩ : Shape).size 1 := by
    rw [s1, w1, z1]; omega
  have H2 : 0 ≤ d.start j idx 2 + d.window j 2
      ∧ d.start j idx 2 + d.window j 2 < (⟨3, ![n0, n1, N]⟩ : Shape).size 2 := by
    rw [s2, w2, z2]; omega
  have H : ∀ a, 0 ≤ d.start j idx a + d.window j a
      ∧ d.start j idx a + d.window j a < (⟨3, ![n0, n1, N]⟩ : Shape).size a :=
    fun a => match a with | ⟨0, _⟩ => H0 | ⟨1, _⟩ => H1 | ⟨2, _⟩ => H2
  unfold ScatterDims.resultIdx?
  rw [dif_pos H]
  congr 1
  funext a
  match a with
  | ⟨0, _⟩ =>
    refine Fin.ext ?_
    show (d.start j idx 0 + d.window j 0).toNat = (j 0).val
    rw [s0, w0]; omega
  | ⟨1, _⟩ =>
    refine Fin.ext ?_
    show (d.start j idx 1 + d.window j 1).toNat = (j 1).val
    rw [s1, w1]; omega
  | ⟨2, _⟩ =>
    refine Fin.ext ?_
    show (d.start j idx 2 + d.window j 2).toNat = off + (j 2).val
    rw [s2, w2]; omega

end Window3

section Read3
variable {α : Type} {n0 n1 N K : Nat} (d : ScatterDims ⟨3, ![n0, n1, N]⟩ ⟨1, ![1]⟩ ⟨3, ![n0, n1, K]⟩)

/-- THE WINDOW SET on the last axis of a rank-3 array, read at (p, q, r): inside the window `[off, off + K)` the update
    at (p, q, r − off), outside it the operand. The dimension numbers are the window's (`hu`, `hi`, `hs`: every update
    axis a window axis, none inserted, the one start index for axis 2), the start index the constant `off` (`hidx`), the
    window inside the operand (`hoff`). -/
theorem scatter_set_last3 (hu : d.updateWindowDims = [0, 1, 2]) (hi : d.insertedWindowDims = [])
    (hs : d.scatterDimsToOperandDims = [2]) (x : (⟨3, ![n0, n1, N]⟩ : Shape).Idx → α) (idx : IVec ⟨1, ![1]⟩ 32) (off : Nat)
    (hidx : ∀ q, idx q = BitVec.ofNat 32 off) (hoff : off + K ≤ N) (hN : N < 2 ^ 31)
    (upd : (⟨3, ![n0, n1, K]⟩ : Shape).Idx → α) (p : Fin n0) (q : Fin n1) (r : Fin N) :
    Host.scatter d (fun _ b => b) x idx upd (ix3 p q r)
      = if h : off ≤ r.val ∧ r.val < off + K then upd (ix3 p q (⟨r.val - off, by omega⟩ : Fin K)) else x (ix3 p q r) := by
  have hres := resultIdx_last3 d hu hi hs idx off hidx hoff hN
  by_cases h : off ≤ r.val ∧ r.val < off + K
  · rw [dif_pos h]
    have e : ix3 p q r = ix3 ((ix3 p q (⟨r.val - off, by omega⟩ : Fin K) : (⟨3, ![n0, n1, K]⟩ : Shape).Idx) 0)
        ((ix3 p q (⟨r.val - off, by omega⟩ : Fin K) : (⟨3, ![n0, n1, K]⟩ : Shape).Idx) 1)
        (⟨off + ((ix3 p q (⟨r.val - off, by omega⟩ : Fin K) : (⟨3, ![n0, n1, K]⟩ : Shape).Idx) 2).val, by
          show off + (r.val - off) < N
          have := r.isLt
          omega⟩ : Fin N) := by
      funext a
      match a with
      | ⟨0, _⟩ => rfl
      | ⟨1, _⟩ => rfl
      | ⟨2, _⟩ =>
        refine Fin.ext ?_
        show r.val = off + (r.val - off)
        omega
    refine (congrArg (Host.scatter d (fun _ b => b) x idx upd) e).trans ?_
    refine scatter_set_emb d x idx upd _ (fun j j' e => ?_) hres _
    funext a
    match a with
    | ⟨0, _⟩ => exact congrFun e 0
    | ⟨1, _⟩ => exact congrFun e 1
    | ⟨2, _⟩ =>
      refine Fin.ext ?_
      have e2 := congrArg Fin.val (congrFun e 2)
      change off + (j 2).val = off + (j' 2).val at e2
      show (j 2).val = (j' 2).val
      omega
  · rw [dif_neg h]
    refine scatter_off_emb d _ x idx upd _ hres _ fun j e => h ?_
    have e2 := congrArg Fin.val (congrFun e 2)
    change off + (j 2).val = r.val at e2
    have : (j 2).val < K := (j 2).isLt
    omega

end Read3

/-! ### The same along the last axis of a rank-2 array -/

section Window2
variable {n0 N K : Nat} (d : ScatterDims ⟨2, ![n0, N]⟩ ⟨1, ![1]⟩ ⟨2, ![n0, K]⟩)

/-- The window coordinate on each axis is the update index's. -/
theorem window_last2 (hu : d.updateWindowDims = [0, 1]) (hi : d.insertedWindowDims = [])
    (j : (⟨2, ![n0, K]⟩ : Shape).Idx) :
    d.window j 0 = (j 0).val ∧ d.window j 1 = (j 1).val := by
  obtain ⟨uw, iw, sd, iv, wf⟩ := d
  change uw = _ at hu
  change iw = _ at hi
  subst hu hi
  refine ⟨?_, ?_⟩
  · unfold ScatterDims.window
    rw [dif_pos (by
      show (0 : Fin 2) ∈ (List.finRange 2).filter (fun a => decide (a ∉ ([] : List (Fin 2))))
      decide)]
    rfl
  · unfold ScatterDims.window
    rw [dif_pos (by
      show (1 : Fin 2) ∈ (List.finRange 2).filter (fun a => decide (a ∉ ([] : List (Fin 2))))
      decide)]
    rfl

/-- The window starts at 0 on axis 0 and at `off` on axis 1. -/
theorem start_last2 (hs : d.scatterDimsToOperandDims = [1]) (idx : IVec ⟨1, ![1]⟩ 32) (off : Nat)
    (hidx : ∀ q, idx q = BitVec.ofNat 32 off) (hoff : off < 2 ^ 31) (j : (⟨2, ![n0, K]⟩ : Shape).Idx) :
    d.start j idx 0 = 0 ∧ d.start j idx 1 = (off : Int) := by
  refine ⟨?_, ?_⟩
  · unfold ScatterDims.start
    rw [dif_neg (by rw [hs]; show (0 : Fin 2) ∉ ([1] : List (Fin 2)); decide)]
  · unfold ScatterDims.start
    rw [dif_pos (by rw [hs]; show (1 : Fin 2) ∈ ([1] : List (Fin 2)); decide), hidx]
    exact StableHlo.Predicate.toInt_ofNat_small off hoff

/-- Update index (p, r) lands at (p, off + r), inside the operand. -/
theorem resultIdx_last2 (hu : d.updateWindowDims = [0, 1]) (hi : d.insertedWindowDims = [])
    (hs : d.scatterDimsToOperandDims = [1]) (idx : IVec ⟨1, ![1]⟩ 32) (off : Nat)
    (hidx : ∀ q, idx q = BitVec.ofNat 32 off) (hoff : off + K ≤ N) (hN : N < 2 ^ 31)
    (j : (⟨2, ![n0, K]⟩ : Shape).Idx) :
    d.resultIdx? j idx
      = some (ix2 (j 0) (⟨off + (j 1).val, by have : (j 1).val < K := (j 1).isLt; omega⟩ : Fin N)) := by
  obtain ⟨w0, w1⟩ := window_last2 d hu hi j
  obtain ⟨s0, s1⟩ := start_last2 d hs idx off hidx (by omega) j
  have l0 : (j 0).val < n0 := (j 0).isLt
  have l1 : (j 1).val < K := (j 1).isLt
  have z0 : (⟨2, ![n0, N]⟩ : Shape).size 0 = n0 := rfl
  have z1 : (⟨2, ![n0, N]⟩ : Shape).size 1 = N := rfl
  have H0 : 0 ≤ d.start j idx 0 + d.window j 0
      ∧ d.start j idx 0 + d.window j 0 < (⟨2, ![n0, N]⟩ : Shape).size 0 := by
    rw [s0, w0, z0]; omega
  have H1 : 0 ≤ d.start j idx 1 + d.window j 1
      ∧ d.start j idx 1 + d.window j 1 < (⟨2, ![n0, N]⟩ : Shape).size 1 := by
    rw [s1, w1, z1]; omega
  have H : ∀ a, 0 ≤ d.start j idx a + d.window j a
      ∧ d.start j idx a + d.window j a < (⟨2, ![n0, N]⟩ : Shape).size a :=
    fun a => match a with | ⟨0, _⟩ => H0 | ⟨1, _⟩ => H1
  unfold ScatterDims.resultIdx?
  rw [dif_pos H]
  congr 1
  funext a
  match a with
  | ⟨0, _⟩ =>
    refine Fin.ext ?_
    show (d.start j idx 0 + d.window j 0).toNat = (j 0).val
    rw [s0, w0]; omega
  | ⟨1, _⟩ =>
    refine Fin.ext ?_
    show (d.start j idx 1 + d.window j 1).toNat = off + (j 1).val
    rw [s1, w1]; omega

end Window2

section Read2
variable {α : Type} {n0 N K : Nat} (d : ScatterDims ⟨2, ![n0, N]⟩ ⟨1, ![1]⟩ ⟨2, ![n0, K]⟩)

/-- THE WINDOW SET on the last axis of a rank-2 array, read at (p, r): inside the window `[off, off + K)` the update at
    (p, r − off), outside it the operand. -/
theorem scatter_set_last2 (hu : d.updateWindowDims = [0, 1]) (hi : d.insertedWindowDims = [])
    (hs : d.scatterDimsToOperandDims = [1]) (x : (⟨2, ![n0, N]⟩ : Shape).Idx → α) (idx : IVec ⟨1, ![1]⟩ 32) (off : Nat)
    (hidx : ∀ q, idx q = BitVec.ofNat 32 off) (hoff : off + K ≤ N) (hN : N < 2 ^ 31)
    (upd : (⟨2, ![n0, K]⟩ : Shape).Idx → α) (p : Fin n0) (r : Fin N) :
    Host.scatter d (fun _ b => b) x idx upd (ix2 p r)
      = if h : off ≤ r.val ∧ r.val < off + K then upd (ix2 p (⟨r.val - off, by omega⟩ : Fin K)) else x (ix2 p r) := by
  have hres := resultIdx_last2 d hu hi hs idx off hidx hoff hN
  by_cases h : off ≤ r.val ∧ r.val < off + K
  · rw [dif_pos h]
    have e : ix2 p r = ix2 ((ix2 p (⟨r.val - off, by omega⟩ : Fin K) : (⟨2, ![n0, K]⟩ : Shape).Idx) 0)
        (⟨off + ((ix2 p (⟨r.val - off, by omega⟩ : Fin K) : (⟨2, ![n0, K]⟩ : Shape).Idx) 1).val, by
          show off + (r.val - off) < N
          have := r.isLt
          omega⟩ : Fin N) := by
      funext a
      match a with
      | ⟨0, _⟩ => rfl
      | ⟨1, _⟩ =>
        refine Fin.ext ?_
        show r.val = off + (r.val - off)
        omega
    refine (congrArg (Host.scatter d (fun _ b => b) x idx upd) e).trans ?_
    refine scatter_set_emb d x idx upd _ (fun j j' e => ?_) hres _
    funext a
    match a with
    | ⟨0, _⟩ => exact congrFun e 0
    | ⟨1, _⟩ =>
      refine Fin.ext ?_
      have e2 := congrArg Fin.val (congrFun e 1)
      change off + (j 1).val = off + (j' 1).val at e2
      show (j 1).val = (j' 1).val
      omega
  · rw [dif_neg h]
    refine scatter_off_emb d _ x idx upd _ hres _ fun j e => h ?_
    have e2 := congrArg Fin.val (congrFun e 1)
    change off + (j 1).val = r.val at e2
    have : (j 1).val < K := (j 1).isLt
    omega

end Read2

/-- The clamp of a word to [0, 63], written `min 63 (max 0 w)` over signed words, is the word when it is already there. -/
theorem clip_id (w : BitVec 32) (hw : w.toNat < 64) : IntOp.minsi 63#32 (IntOp.maxsi 0#32 w) = w := by
  have hti : w.toInt = w.toNat := StableHlo.Predicate.toInt_eq_toNat_of_lt (by omega)
  have h0 : (0#32 : BitVec 32).toInt = 0 := by decide
  have h63 : (63#32 : BitVec 32).toInt = 63 := by decide
  have hmax : IntOp.maxsi 0#32 w = w := by
    unfold IntOp.maxsi
    rw [if_neg]
    simp only [BitVec.slt, hti, h0, decide_eq_true_eq]
    omega
  rw [hmax]
  unfold IntOp.minsi
  rw [if_neg]
  simp only [BitVec.slt, hti, h63, decide_eq_true_eq]
  omega

/-- A 16384 × 3 array and a 16384 × 1 array joined along the second axis, read at (b, k): the first at (b, k) when
    k < 3, the second at (b, 0) when k = 3. -/
theorem cat4_apply {α : Type} (x : S16384x3.Idx → α) (y : S16384x1.Idx → α) (b : Fin 16384) (k : Fin 4) :
    concatenate S16384x4 1 [⟨S16384x3, x⟩, ⟨S16384x1, y⟩] concatenates_S16384x3_S16384x1_S16384x4_d1 (ix2 b k)
      = if h : k.val < 3 then x (ix2 b (⟨k.val, h⟩ : Fin 3)) else y (ix2 b (0 : Fin 1)) := by
  by_cases h : k.val < 3
  · rw [dif_pos h]
    refine concatenate_pair_apply_left (1 : Fin S16384x4.rank) x y _ (ix2 b k) rfl (ix2 b (⟨k.val, h⟩ : Fin 3)) fun a => ?_
    match a with
    | ⟨0, _⟩ => rfl
    | ⟨1, _⟩ => rfl
  · rw [dif_neg h]
    refine concatenate_pair_apply_right (1 : Fin S16384x4.rank) x y _ (ix2 b k) rfl rfl (ix2 b (0 : Fin 1)) (fun a ha => ?_) ?_
    · match a with
      | ⟨0, _⟩ => rfl
      | ⟨1, _⟩ => exact absurd rfl ha
    · show 0 + 3 = k.val
      have := k.isLt
      omega

/-- The clamped position words are the position words when these are in range. -/
theorem V_pos (h : InRange (a5 m c) (a6 m c)) (b : Fin 16384) (k : Fin 4) :
    (V m c main_v1 : S16384x4.Idx → BitVec 32) (ix2 b k) = posWord (a5 m c) (a6 m c) b k := by
  have e : (V m c main_v1 : S16384x4.Idx → BitVec 32)
      = minsi (broadcastInDim S16384x4 ![] bcast_S_S16384x4 (constantI S_ 32 63#32))
          (maxsi (broadcastInDim S16384x4 ![] bcast_S_S16384x4 (constantI S_ 32 0#32))
            (concatenate S16384x4 1 [⟨S16384x3, a5 m c⟩, ⟨S16384x1, a6 m c⟩] concatenates_S16384x3_S16384x1_S16384x4_d1)) := by
    dsimp only [Gen.V]
    simp only [Gen.hostOps0, Gen.hostOps0_1, Gen.hostOps0_2, List.flatten_cons, List.flatten_nil, List.append_nil,
      List.cons_append, List.nil_append]
    after_results
    rfl
  rw [e]
  show IntOp.minsi 63#32 (IntOp.maxsi 0#32 (concatenate S16384x4 1 [⟨S16384x3, a5 m c⟩, ⟨S16384x1, a6 m c⟩]
    concatenates_S16384x3_S16384x1_S16384x4_d1 (ix2 b k))) = _
  rw [cat4_apply]
  exact clip_id _ (h b k)

/-- A length-16384 vector laid down the rows of a 16384 × 3 array reads, at (b, k), the vector at b. -/
theorem rows3_apply {α : Type} (v : S16384.Idx → α) (b : Fin 16384) (k : Fin 3) :
    broadcastInDim S16384x3 ![0, 1] bcast_S16384x1_S16384x3_0_1
      (broadcastInDim S16384x1 ![0] bcast_S16384_S16384x1_0 v) (ix2 b k) = v (ix1 b) := by
  simp only [broadcastInDim]
  congr 1
  funext a
  match a with
  | ⟨0, _⟩ => rfl

/-- A length-16384 vector as a 16384 × 1 column reads, at (b, 0), the vector at b. -/
theorem col1_apply {α : Type} (v : S16384.Idx → α) (b : Fin 16384) :
    broadcastInDim S16384x1 ![0] bcast_S16384_S16384x1_0 v (ix2 b (0 : Fin 1)) = v (ix1 b) := by
  simp only [broadcastInDim]
  congr 1
  funext a
  match a with
  | ⟨0, _⟩ => rfl

/-- The positions 0, 1, 2 laid along the columns of a 16384 × 3 array read, at (b, k), the word k. -/
theorem iota3_apply (b : Fin 16384) (k : Fin 3) :
    broadcastInDim S16384x3 ![0, 1] bcast_S1x3_S16384x3_0_1
      (broadcastInDim S1x3 ![1] bcast_S3_S1x3_1 (iotaInDim S3 32 0)) (ix2 b k) = BitVec.ofNat 32 k.val := rfl

/-- The one position 0 laid along the column of a 16384 × 1 array reads the zero word. -/
theorem iota1_apply (b : Fin 16384) :
    broadcastInDim S16384x1 ![0, 1] bcast_S1x1_S16384x1_0_1
      (broadcastInDim S1x1 ![1] bcast_S1_S1x1_1 (iotaInDim S1 32 0)) (ix2 b (0 : Fin 1)) = 0#32 := rfl

/-- The live factors. -/
theorem V_live (b : Fin 16384) (k : Fin 4) :
    (V m c main_v15 : S16384x4.Idx → EReal) (ix2 b k) = live (a7 m c) (a8 m c) b k := by
  have e : (V m c main_v15 : S16384x4.Idx → EReal)
      = concatenate S16384x4 1
          [⟨S16384x3, (uitofp .f32 (cmpi .slt
              (broadcastInDim S16384x3 ![0, 1] bcast_S1x3_S16384x3_0_1
                (broadcastInDim S1x3 ![1] bcast_S3_S1x3_1 (iotaInDim S3 32 0)))
              (broadcastInDim S16384x3 ![0, 1] bcast_S16384x1_S16384x3_0_1
                (broadcastInDim S16384x1 ![0] bcast_S16384_S16384x1_0 (a7 m c)))) : FVec Ideal S16384x3 .f32)⟩,
           ⟨S16384x1, (uitofp .f32 (cmpi .slt
              (broadcastInDim S16384x1 ![0, 1] bcast_S1x1_S16384x1_0_1
                (broadcastInDim S1x1 ![1] bcast_S1_S1x1_1 (iotaInDim S1 32 0)))
              (broadcastInDim S16384x1 ![0] bcast_S16384_S16384x1_0 (a8 m c))) : FVec Ideal S16384x1 .f32)⟩]
          concatenates_S16384x3_S16384x1_S16384x4_d1 := by
    dsimp only [Gen.V]
    simp only [Gen.hostOps0, Gen.hostOps0_1, Gen.hostOps0_2, List.flatten_cons, List.flatten_nil, List.append_nil,
      List.cons_append, List.nil_append]
    after_results
  rw [e, cat4_apply]
  unfold live liveBit
  by_cases h : k.val < 3
  · rw [dif_pos h, if_pos h]
    show (((IntOp.cmpi .slt
        (broadcastInDim S16384x3 ![0, 1] bcast_S1x3_S16384x3_0_1
          (broadcastInDim S1x3 ![1] bcast_S3_S1x3_1 (iotaInDim S3 32 0)) (ix2 b (⟨k.val, h⟩ : Fin 3)))
        (broadcastInDim S16384x3 ![0, 1] bcast_S16384x1_S16384x3_0_1
          (broadcastInDim S16384x1 ![0] bcast_S16384_S16384x1_0 (a7 m c)) (ix2 b (⟨k.val, h⟩ : Fin 3)))).toNat : ℝ) : EReal) = _
    rw [iota3_apply, rows3_apply]
  · rw [dif_neg h, if_neg h]
    show (((IntOp.cmpi .slt
        (broadcastInDim S16384x1 ![0, 1] bcast_S1x1_S16384x1_0_1
          (broadcastInDim S1x1 ![1] bcast_S1_S1x1_1 (iotaInDim S1 32 0)) (ix2 b (0 : Fin 1)))
        (broadcastInDim S16384x1 ![0] bcast_S16384_S16384x1_0 (a8 m c) (ix2 b (0 : Fin 1)))).toNat : ℝ) : EReal) = _
    rw [iota1_apply, col1_apply]

/-- A matrix with 1000 columns, transposed and cut into four slabs of 250 rows, reads at (k, d, r) the matrix at
    (r, 250·k + d). -/
theorem slab_apply {α : Type} {n : Nat} (A : (⟨2, ![n, 1000]⟩ : Shape).Idx → α)
    (ht : (⟨2, ![n, 1000]⟩ : Shape).Transposes [1, 0] ⟨2, ![1000, n]⟩)
    (hc : (⟨2, ![1000, n]⟩ : Shape).ShapeCasts ⟨3, ![4, 250, n]⟩) (k : Fin 4) (d : Fin 250) (r : Fin n) :
    shapeCast ⟨3, ![4, 250, n]⟩ (transpose ⟨2, ![1000, n]⟩ [1, 0] A ht) hc (ix3 k d r) = A (ix2 r (flat k d)) := by
  refine (shapeCast_apply _ hc (ix3 k d r) (ix2 (flat k d) r) ?_).trans ?_
  · rw [Shape.rowMajor_val_two, Shape.rowMajor_val_three]
    show (250 * k.val + d.val) * n + r.val = (k.val * 250 + d.val) * n + r.val
    rw [Nat.mul_comm 250 k.val]
  · refine transpose_apply [1, 0] A ht (ix2 (flat k d) r) (ix2 r (flat k d)) fun b => ?_
    match b with
    | ⟨0, _⟩ => rfl
    | ⟨1, _⟩ => rfl

/-- A vector as a one-row matrix reads at (0, r) the vector at r. -/
theorem row_apply {α : Type} {n : Nat} (v : (⟨1, ![n]⟩ : Shape).Idx → α)
    (hc : (⟨1, ![n]⟩ : Shape).ShapeCasts ⟨2, ![1, n]⟩) (r : Fin n) :
    shapeCast ⟨2, ![1, n]⟩ v hc (ix2 (0 : Fin 1) r) = v (ix1 r) := by
  refine shapeCast_apply v hc (ix2 (0 : Fin 1) r) (ix1 r) ?_
  rw [Shape.rowMajor_val_one, Shape.rowMajor_val_two]
  show r.val = 0 * n + r.val
  omega

/-- The fused weight. -/
theorem V_wc (k : Fin 4) (d : Fin 250) (n : Fin 128) :
    (V m c main_v24 : S4x250x128.Idx → EReal) (ix3 k d n) = wcat (a1 m c) (a3 m c) k d n := by
  have e : (V m c main_v24 : S4x250x128.Idx → EReal)
      = Host.scatter scatter_S4x250x128_S1_S4x250x50_012_n_2_0 (fun _ b => b)
          (Host.scatter scatter_S4x250x128_S1_S4x250x4_012_n_2_0 (fun _ b => b)
            (broadcastInDim S4x250x128 ![] bcast_S_S4x250x128 (constant (F := Ideal) S_ .f32 0x00000000#32))
            (broadcastInDim S1 ![] bcast_S_S1 (constantI S_ 32 0#32))
            (shapeCast S4x250x4 (transpose S1000x4 [1, 0] (a1 m c) transposes_S4x1000_S1000x4_1_0)
              shapeCasts_S1000x4_S4x250x4))
          (broadcastInDim S1 ![] bcast_S_S1 (constantI S_ 32 4#32))
          (shapeCast S4x250x50 (transpose S1000x50 [1, 0] (a3 m c) transposes_S50x1000_S1000x50_1_0)
            shapeCasts_S1000x50_S4x250x50) := by
    dsimp only [Gen.V]
    simp only [Gen.hostOps0, Gen.hostOps0_1, Gen.hostOps0_2, List.flatten_cons, List.flatten_nil, List.append_nil,
      List.cons_append, List.nil_append]
    after_results
    rfl
  rw [e,
    scatter_set_last3 scatter_S4x250x128_S1_S4x250x50_012_n_2_0 rfl rfl rfl _ _ 4 (by intro q; rfl) (by decide) (by decide),
    scatter_set_last3 scatter_S4x250x128_S1_S4x250x4_012_n_2_0 rfl rfl rfl _ _ 0 (by intro q; rfl) (by decide) (by decide)]
  unfold wcat
  by_cases h4 : n.val < 4
  · have c1 : ¬(4 ≤ n.val ∧ n.val < 4 + 50) := by omega
    have c2 : 0 ≤ n.val ∧ n.val < 0 + 4 := by omega
    rw [dif_neg c1, dif_pos c2, dif_pos h4]
    exact slab_apply (a1 m c) _ _ k d _
  · by_cases h54 : n.val < 54
    · have c1 : 4 ≤ n.val ∧ n.val < 4 + 50 := by omega
      rw [dif_pos c1, dif_neg h4, dif_pos h54]
      exact slab_apply (a3 m c) _ _ k d _
    · have c1 : ¬(4 ≤ n.val ∧ n.val < 4 + 50) := by omega
      have c2 : ¬(0 ≤ n.val ∧ n.val < 0 + 4) := by omega
      rw [dif_neg c1, dif_neg c2, dif_neg h4, dif_neg h54]
      exact Ideal.ofBits_zero_f32

/-- The fused bias. -/
theorem V_bc (n : Fin 128) :
    (V m c main_v31 : S1x128.Idx → EReal) (ix2 (0 : Fin 1) n) = bcat (a2 m c) (a4 m c) n := by
  have e : (V m c main_v31 : S1x128.Idx → EReal)
      = Host.scatter scatter_S1x128_S1_S1x50_01_n_1_0 (fun _ b => b)
          (Host.scatter scatter_S1x128_S1_S1x4_01_n_1_0 (fun _ b => b)
            (broadcastInDim S1x128 ![] bcast_S_S1x128 (constant (F := Ideal) S_ .f32 0x00000000#32))
            (broadcastInDim S1 ![] bcast_S_S1 (constantI S_ 32 0#32))
            (shapeCast S1x4 (a2 m c) shapeCasts_S4_S1x4))
          (broadcastInDim S1 ![] bcast_S_S1 (constantI S_ 32 4#32))
          (shapeCast S1x50 (a4 m c) shapeCasts_S50_S1x50) := by
    dsimp only [Gen.V]
    simp only [Gen.hostOps0, Gen.hostOps0_1, Gen.hostOps0_2, List.flatten_cons, List.flatten_nil, List.append_nil,
      List.cons_append, List.nil_append]
    after_results
    rfl
  rw [e,
    scatter_set_last2 scatter_S1x128_S1_S1x50_01_n_1_0 rfl rfl rfl _ _ 4 (by intro q; rfl) (by decide) (by decide),
    scatter_set_last2 scatter_S1x128_S1_S1x4_01_n_1_0 rfl rfl rfl _ _ 0 (by intro q; rfl) (by decide) (by decide)]
  unfold bcat
  by_cases h4 : n.val < 4
  · have c1 : ¬(4 ≤ n.val ∧ n.val < 4 + 50) := by omega
    have c2 : 0 ≤ n.val ∧ n.val < 0 + 4 := by omega
    rw [dif_neg c1, dif_pos c2, dif_pos h4]
    exact row_apply (a2 m c) _ _
  · by_cases h54 : n.val < 54
    · have c1 : 4 ≤ n.val ∧ n.val < 4 + 50 := by omega
      rw [dif_pos c1, dif_neg h4, dif_pos h54]
      exact row_apply (a4 m c) _ _
    · have c1 : ¬(4 ≤ n.val ∧ n.val < 4 + 50) := by omega
      have c2 : ¬(0 ≤ n.val ∧ n.val < 0 + 4) := by omega
      rw [dif_neg c1, dif_neg c2, dif_neg h4, dif_neg h54]
      exact Ideal.ofBits_zero_f32

end Cert.KernelIdeal.HostSide

end
-- ==== Proof.KValue.lean ====
/-
  From the blocks to the arrays: what the two output arrays hold after the kernel's run.

  The grid has 64 points; at point `t` the body sees parser states `256·t … 256·t + 255` (rows `256·t + p` of the LSTM
  outputs, of the position words and of the live factors) and the whole fused weight and bias, and writes rows
  `256·t + p` of the two outputs. The body's entry for row `p` (module KBody), with the blocks read back as entries
  of the arrays the region finds (module KHost), is the specification's entry for state `256·t + p`: the live factor
  commutes with the LSTM entry, lanes 0–3 of the fused weight and bias are the transitions head's and lanes 4–53 the
  relations head's. The 64 blocks tile each output array, so each array is the specification's function.
-/
import proofs.«409882_j15101105013315_3_alg».proof.Proof.Gen.KernelIdeal.Value
import proofs.«409882_j15101105013315_3_alg».proof.Proof.KBody
import proofs.«409882_j15101105013315_3_alg».proof.Proof.KHost
import proofs.«409882_j15101105013315_3_alg».proof.Proof.Spec
import Idealize.ShloMosaic.Lib.Pipeline.Value
import Idealize.ShloMosaic.Lib.ValueIdx

noncomputable section

namespace Cert.KernelIdeal.ArrayValue

open Cert.KernelIdeal Cert.KernelIdeal.Gen Cert.KernelIdeal.HostSide Cert.KernelIdeal.Body
open Idealize.ShloMosaic Idealize.ShloMosaic.TcCoe Idealize.SL.Sem Idealize.ShloMosaic.ValueIdx Cert.Spec
open Idealize.ShloMosaic.Pipeline (Dat)

variable (m : (ℓ : Loc nD τ sig) → Buf (Elt Ideal) ℓ) (ρ : Dev nD → PrngReg)

/-- The printed index maps over the grid: the three batched inputs and the two outputs take block `t` along the state
    axis at point `t`; the fused weight and bias are one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 3) = 0 ∧ win0_3.index t (1 : Fin 3) = 0 ∧ win0_3.index t (2 : Fin 3) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem t_lt (t : Fin cfg0.N) : t.val < 64 := by
  have h := t.isLt
  have e : cfg0.N = 64 := N_0
  omega

/-- The parser state that row `p` of block `t` is. -/
def row (t : Fin cfg0.N) (p : Fin 256) : Fin 16384 := ⟨256 * t.val + p.val, by have := t_lt t; have := p.isLt; omega⟩

/-- The five input blocks at point `t`, at their literal types. -/
abbrev b0 (c : Dev nD) (t : Fin cfg0.N) : Vec Ideal S256x64x250 .f32 := iblk m c 0 t
abbrev b1 (c : Dev nD) (t : Fin cfg0.N) : Vec Ideal S256x4 .i32 := iblk m c 1 t
abbrev b2 (c : Dev nD) (t : Fin cfg0.N) : Vec Ideal S256x4 .f32 := iblk m c 2 t
abbrev b3 (c : Dev nD) (t : Fin cfg0.N) : Vec Ideal S4x250x128 .f32 := iblk m c 3 t
abbrev b4 (c : Dev nD) (t : Fin cfg0.N) : Vec Ideal S1x128 .f32 := iblk m c 4 t

/-- Row `p` of the LSTM block is state `256·t + p`'s matrix. -/
theorem b0_apply (c : Dev nD) (t : Fin cfg0.N) (p : Fin 256) (s : Fin 64) (d : Fin 250) :
    b0 m c t (ix3 p s d) = a0 m c (ix3 (row t p) s d) := by
  show V m c main_arg0 (((cfg0.win 0).blk t).view.emb (ix3 p s d)) = _
  rw [V_main_arg0]
  refine congrArg _ ?_
  obtain ⟨e0, e1, e2, -⟩ := idx_facts t
  funext a; apply Fin.ext
  match a with
  | ⟨0, _⟩ => show win0_0.index t (0 : Fin 3) * 256 + 1 * p.val = 256 * t.val + p.val; omega
  | ⟨1, _⟩ => show win0_0.index t (1 : Fin 3) * 64 + 1 * s.val = s.val; omega
  | ⟨2, _⟩ => show win0_0.index t (2 : Fin 3) * 250 + 1 * d.val = d.val; omega

/-- Where the blocks' entries sit in their arrays. -/
theorem emb1 (t : Fin cfg0.N) (p : Fin 256) (k : Fin 4) :
    ((cfg0.win 1).blk t).view.emb (ix2 p k) = (ix2 (row t p) k : S16384x4.Idx) := by
  obtain ⟨-, -, -, e0, e1, -⟩ := idx_facts t
  funext a; apply Fin.ext
  match a with
  | ⟨0, _⟩ => show win0_1.index t (0 : Fin 2) * 256 + 1 * p.val = 256 * t.val + p.val; omega
  | ⟨1, _⟩ => show win0_1.index t (1 : Fin 2) * 4 + 1 * k.val = k.val; omega

theorem emb2 (t : Fin cfg0.N) (p : Fin 256) (k : Fin 4) :
    ((cfg0.win 2).blk t).view.emb (ix2 p k) = (ix2 (row t p) k : S16384x4.Idx) := by
  obtain ⟨-, -, -, -, -, e0, e1, -⟩ := idx_facts t
  funext a; apply Fin.ext
  match a with
  | ⟨0, _⟩ => show win0_2.index t (0 : Fin 2) * 256 + 1 * p.val = 256 * t.val + p.val; omega
  | ⟨1, _⟩ => show win0_2.index t (1 : Fin 2) * 4 + 1 * k.val = k.val; omega

theorem emb3 (t : Fin cfg0.N) (k : Fin 4) (d : Fin 250) (n : Fin 128) :
    ((cfg0.win 3).blk t).view.emb (ix3 k d n) = (ix3 k d n : S4x250x128.Idx) := by
  obtain ⟨-, -, -, -, -, -, -, e0, e1, e2, -⟩ := idx_facts t
  funext a; apply Fin.ext
  match a with
  | ⟨0, _⟩ => show win0_3.index t (0 : Fin 3) * 4 + 1 * k.val = k.val; omega
  | ⟨1, _⟩ => show win0_3.index t (1 : Fin 3) * 250 + 1 * d.val = d.val; omega
  | ⟨2, _⟩ => show win0_3.index t (2 : Fin 3) * 128 + 1 * n.val = n.val; omega

theorem emb4 (t : Fin cfg0.N) (n : Fin 128) :
    ((cfg0.win 4).blk t).view.emb (ix2 (0 : Fin 1) n) = (ix2 (0 : Fin 1) n : S1x128.Idx) := by
  obtain ⟨-, -, -, -, -, -, -, -, -, -, e0, e1, -⟩ := idx_facts t
  funext a; apply Fin.ext
  match a with
  | ⟨0, _⟩ => show win0_4.index t (0 : Fin 2) * 1 + 1 * 0 = 0; omega
  | ⟨1, _⟩ => show win0_4.index t (1 : Fin 2) * 128 + 1 * n.val = n.val; omega

/-- Row `p` of the position-word block is state `256·t + p`'s four words. -/
theorem b1_apply (c : Dev nD) (t : Fin cfg0.N) (p : Fin 256) (k : Fin 4) :
    b1 m c t (ix2 p k) = (V m c main_v1 : S16384x4.Idx → BitVec 32) (ix2 (row t p) k) := by
  show V m c main_v1 (((cfg0.win 1).blk t).view.emb (ix2 p k)) = V m c main_v1 (ix2 (row t p) k)
  rw [emb1]

/-- Row `p` of the live-factor block is state `256·t + p`'s four factors. -/
theorem b2_apply (c : Dev nD) (t : Fin cfg0.N) (p : Fin 256) (k : Fin 4) :
    b2 m c t (ix2 p k) = (V m c main_v15 : S16384x4.Idx → EReal) (ix2 (row t p) k) := by
  show V m c main_v15 (((cfg0.win 2).blk t).view.emb (ix2 p k)) = V m c main_v15 (ix2 (row t p) k)
  rw [emb2]

/-- Reading any array through the weight window's block reads the array: the block is the whole array. -/
theorem read3 (A : S4x250x128.Idx → EReal) (t : Fin cfg0.N) (k : Fin 4) (d : Fin 250) (n : Fin 128) :
    ((cfg0.win 3).blk t).view.read (Elt Ideal) A (ix3 k d n) = A (ix3 k d n) := by
  show A (((cfg0.win 3).blk t).view.emb (ix3 k d n)) = _
  rw [emb3]

/-- The weight block is the whole fused weight. -/
theorem b3_apply (c : Dev nD) (t : Fin cfg0.N) (k : Fin 4) (d : Fin 250) (n : Fin 128) :
    b3 m c t (ix3 k d n) = (V m c main_v24 : S4x250x128.Idx → EReal) (ix3 k d n) :=
  read3 (V m c main_v24) t k d n

/-- The bias block is the whole fused bias. -/
theorem b4_apply (c : Dev nD) (t : Fin cfg0.N) (n : Fin 128) :
    b4 m c t (ix2 (0 : Fin 1) n) = (V m c main_v31 : S1x128.Idx → EReal) (ix2 (0 : Fin 1) n) := by
  show V m c main_v31 (((cfg0.win 4).blk t).view.emb (ix2 (0 : Fin 1) n)) = V m c main_v31 (ix2 (0 : Fin 1) n)
  rw [emb4]

/-- Under the range hypothesis the block's position words name the specification's positions. -/
theorem b1_pos (c : Dev nD) (h : InRange (a5 m c) (a6 m c)) (t : Fin cfg0.N) (p : Fin 256) (k : Fin 4) :
    b1 m c t (ix2 p k) = BitVec.ofNat 32 (pos (a5 m c) (a6 m c) (row t p) k).val := by
  rw [b1_apply, V_pos m c h, posWord_eq _ _ h]

/-- WHAT POINT `t` WRITES BACK to the transitions output is block `t` of the specification's array. -/
theorem flushed5_eq (c : Dev nD) (h : InRange (a5 m c) (a6 m c)) (t : Fin cfg0.N) :
    (dats m 0 c).flushed 5 t = ((cfg0.win 5).blk t).view.read (Elt Ideal)
      (outT (a0 m c) (a5 m c) (a6 m c) (a7 m c) (a8 m c) (a1 m c) (a2 m c)) := by
  rw [Value.flushed5]
  funext j
  obtain ⟨p, n, rfl⟩ : ∃ (p : Fin 256) (n : Fin 4), j = ix2 p n := ⟨j 0, j 1, eq_ix2 j⟩
  show out0_5 (b0 m c t) (b1 m c t) (b2 m c t) (b3 m c t) (b4 m c t) (ix2 p n)
    = outT (a0 m c) (a5 m c) (a6 m c) (a7 m c) (a8 m c) (a1 m c) (a2 m c) (((cfg0.win 5).blk t).view.emb (ix2 p n))
  have hemb : ((cfg0.win 5).blk t).view.emb (ix2 p n) = (ix2 (row t p) n : S16384x4.Idx) := by
    obtain ⟨-, -, -, -, -, -, -, -, -, -, -, -, e0, e1, -⟩ := idx_facts t
    funext a; apply Fin.ext
    match a with
    | ⟨0, _⟩ => show win0_5.index t (0 : Fin 2) * 256 + 1 * p.val = 256 * t.val + p.val; omega
    | ⟨1, _⟩ => show win0_5.index t (1 : Fin 2) * 4 + 1 * n.val = n.val; omega
  rw [hemb]
  refine (out5_apply (b0 m c t) (b1 m c t) (b2 m c t) (b3 m c t) (b4 m c t)
    (fun p k => pos (a5 m c) (a6 m c) (row t p) k) (fun p k => b1_pos m c h t p k) p n).trans ?_
  have hn : n.val < 4 := n.isLt
  show entry2 _ _ _ = entry2 (feat (a0 m c) (a5 m c) (a6 m c) (a7 m c) (a8 m c) (row t p))
    (fun k d => a1 m c (ix2 n (flat k d))) (a2 m c (ix1 n))
  refine congr (congr (congrArg entry2 ?_) ?_) ?_
  · funext k d
    rw [b2_apply, V_live, b0_apply]
    exact mul_comm _ _
  · funext k d
    rw [b3_apply, V_wc]
    unfold wcat
    rw [dif_pos hn]
  · rw [b4_apply, V_bc]
    unfold bcat
    rw [dif_pos hn]

/-- WHAT POINT `t` WRITES BACK to the relations output is block `t` of the specification's array. -/
theorem flushed6_eq (c : Dev nD) (h : InRange (a5 m c) (a6 m c)) (t : Fin cfg0.N) :
    (dats m 0 c).flushed 6 t = ((cfg0.win 6).blk t).view.read (Elt Ideal)
      (outR (a0 m c) (a5 m c) (a6 m c) (a7 m c) (a8 m c) (a3 m c) (a4 m c)) := by
  rw [Value.flushed6]
  funext j
  obtain ⟨p, n, rfl⟩ : ∃ (p : Fin 256) (n : Fin 50), j = ix2 p n := ⟨j 0, j 1, eq_ix2 j⟩
  show out0_6 (b0 m c t) (b1 m c t) (b2 m c t) (b3 m c t) (b4 m c t) (ix2 p n)
    = outR (a0 m c) (a5 m c) (a6 m c) (a7 m c) (a8 m c) (a3 m c) (a4 m c) (((cfg0.win 6).blk t).view.emb (ix2 p n))
  have hemb : ((cfg0.win 6).blk t).view.emb (ix2 p n) = (ix2 (row t p) n : S16384x50.Idx) := by
    obtain ⟨-, -, -, -, -, -, -, -, -, -, -, -, -, -, e0, e1⟩ := idx_facts t
    funext a; apply Fin.ext
    match a with
    | ⟨0, _⟩ => show win0_6.index t (0 : Fin 2) * 256 + 1 * p.val = 256 * t.val + p.val; omega
    | ⟨1, _⟩ => show win0_6.index t (1 : Fin 2) * 50 + 1 * n.val = n.val; omega
  rw [hemb]
  refine (out6_apply (b0 m c t) (b1 m c t) (b2 m c t) (b3 m c t) (b4 m c t)
    (fun p k => pos (a5 m c) (a6 m c) (row t p) k) (fun p k => b1_pos m c h t p k) p n).trans ?_
  have hn : n.val < 50 := n.isLt
  have h4 : ¬ (n.val + 4 < 4) := by omega
  have h54 : n.val + 4 < 54 := by omega
  show entry2 _ _ _ = entry2 (feat (a0 m c) (a5 m c) (a6 m c) (a7 m c) (a8 m c) (row t p))
    (fun k d => a3 m c (ix2 n (flat k d))) (a4 m c (ix1 n))
  refine congr (congr (congrArg entry2 ?_) ?_) ?_
  · funext k d
    rw [b2_apply, V_live, b0_apply]
    exact mul_comm _ _
  · funext k d
    rw [b3_apply, V_wc]
    unfold wcat
    rw [dif_neg h4, dif_pos h54]
    rfl
  · rw [b4_apply, V_bc]
    unfold bcat
    rw [dif_neg h4, dif_pos h54]
    rfl

/-- An index of the transitions output is in point `t`'s block iff each coordinate is in the block's range. -/
theorem mem_blk5 (t : Fin cfg0.N) (i : S16384x4.Idx) :
    i ∈ ((cfg0.win 5).blk t).view.set ↔ ∀ a : Fin 2, win0_5.index t a * S256x4.size a ≤ (i a).val ∧ (i a).val < win0_5.index t a * S256x4.size a + S256x4.size a := by
  show i ∈ ((View.whole main_v32_0).slice (win0_5.rect t)).set ↔ _
  rw [View.set_slice_whole, Rect.mem_set_unit]
  exact Iff.rfl

theorem mem_blk6 (t : Fin cfg0.N) (i : S16384x50.Idx) :
    i ∈ ((cfg0.win 6).blk t).view.set ↔ ∀ a : Fin 2, win0_6.index t a * S256x50.size a ≤ (i a).val ∧ (i a).val < win0_6.index t a * S256x50.size a + S256x50.size a := by
  show i ∈ ((View.whole main_v32_1).slice (win0_6.rect t)).set ↔ _
  rw [View.set_slice_whole, Rect.mem_set_unit]
  exact Iff.rfl

/-- Every row of the transitions output is in the block of the point its state's index divided by 256 names. -/
theorem cover5 (i : S16384x4.Idx) : ∃ t : Fin cfg0.N, (cfg0.win 5).flush t = true ∧ i ∈ ((cfg0.win 5).blk t).view.set := by
  have hi0 : (i 0).val < 16384 := (i 0).isLt
  have hi1 : (i 1).val < 4 := (i 1).isLt
  have e : cfg0.N = 64 := N_0
  let t : Fin cfg0.N := ⟨(i 0).val / 256, by omega⟩
  obtain ⟨-, -, -, -, -, -, -, -, -, -, -, -, e0, e1, -⟩ := idx_facts t
  have ht : t.val = (i 0).val / 256 := rfl
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 4 ≤ (i 1).val ∧ (i 1).val < win0_5.index t (1 : Fin 2) * 4 + 4; omega

theorem cover6 (i : S16384x50.Idx) : ∃ t : Fin cfg0.N, (cfg0.win 6).flush t = true ∧ i ∈ ((cfg0.win 6).blk t).view.set := by
  have hi0 : (i 0).val < 16384 := (i 0).isLt
  have hi1 : (i 1).val < 50 := (i 1).isLt
  have e : cfg0.N = 64 := N_0
  let t : Fin cfg0.N := ⟨(i 0).val / 256, by omega⟩
  obtain ⟨-, -, -, -, -, -, -, -, -, -, -, -, -, -, e0, e1⟩ := idx_facts t
  have ht : t.val = (i 0).val / 256 := rfl
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 50 ≤ (i 1).val ∧ (i 1).val < win0_6.index t (1 : Fin 2) * 50 + 50; omega

/-- THE TRANSITIONS ARRAY after the run is the specification's. -/
theorem final5 (c : Dev nD) (h : InRange (a5 m c) (a6 m c)) :
    (dats m 0 c).arrAt 5 cfg0.N = outT (a0 m c) (a5 m c) (a6 m c) (a7 m c) (a8 m c) (a1 m c) (a2 m c) :=
  (dats m 0 c).arrAt_eq_of_cover 5 _ (fun t _ => flushed5_eq m c h t) cover5

/-- THE RELATIONS ARRAY after the run is the specification's. -/
theorem final6 (c : Dev nD) (h : InRange (a5 m c) (a6 m c)) :
    (dats m 0 c).arrAt 6 cfg0.N = outR (a0 m c) (a5 m c) (a6 m c) (a7 m c) (a8 m c) (a3 m c) (a4 m c) :=
  (dats m 0 c).arrAt_eq_of_cover 6 _ (fun t _ => flushed6_eq m c h t) cover6

end Cert.KernelIdeal.ArrayValue

end
-- ==== Proof.LibAllOnes.lean ====
/-
  Two readings a fill-mode `take` needs that the library states only one way round.

  * An `and`-reduction started at 1 over an array of `i1` words that are all 1 is 1 at every result index
    (`reduce_andi_of_all`): the converse of the library's reading of `jnp.all`, by the same fold.
  * A length-`m` vector laid along the second axis of an [n × m] rectangle in ONE broadcast (dimension map `[1]`)
    reads, at (p, q), the vector at `q` (`bcast_axis1`).
-/
import Idealize.ShloMosaic.Lib.ReduceAll
import Idealize.ShloMosaic.Lib.StableHlo.Predicate

noncomputable section

namespace Cert.LibAllOnes

open Idealize.ShloMosaic Idealize.ShloMosaic.StableHlo.Predicate

/-- A left fold by `and` from 1 over 1s is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi 1#1 1#1 = 1#1 := by decide
    rw [List.foldl_cons, ha, h11]
    exact foldl_andi_one f l (fun n hn => h n (List.mem_cons_of_mem _ hn))

/-- An `and`-reduction from 1 of an array whose every element is 1 is 1 at every result index. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ (fun i _ => hx i)

/-- A vector laid along the second axis of an [n × m] rectangle by one broadcast reads, at (p, q), the vector at `q`. -/
theorem bcast_axis1 {α : Type} {n m : Nat} (h : (⟨1, ![m]⟩ : Shape).BroadcastsInDim ⟨2, ![n, m]⟩ ![1])
    (v : (⟨1, ![m]⟩ : Shape).Idx → α) (p : Fin n) (q : Fin m) :
    broadcastInDim ⟨2, ![n, m]⟩ ![1] h v (ij p q) = v (Shape.Idx.ofFin q) := by
  simp only [broadcastInDim]
  congr 1
  funext a
  have ha : a = 0 := Subsingleton.elim _ _
  subst ha
  apply Fin.ext
  have hq := q.isLt
  split
  · next h1 => change m = 1 at h1; show (0 : Nat) = q.val; omega
  · rfl

end Cert.LibAllOnes

end
-- ==== Proof.RValue.lean ====
/-
  What the reference computes, index by index, when every position word is in range.

  For a stack slot the reference takes row `idx` of the state's LSTM matrix with `take_along_axis`: a negative word is
  moved up by 64, a word outside [0, 63] after that yields the fill value, and the gather itself clamps. A word in
  [0, 64) is left alone by all three, so the gathered entry is the LSTM entry at the word's position. It is multiplied
  by the live bit, the three stack slots' rows are laid end to end (a reshape to 750 columns) and the buffer slot's row
  appended (columns 750–999): column `250·k + d` of the result is the feature of slot `k`, column `d`. Each head is
  `tanh` of the product with a transposed weight matrix, a sum over the 1000 columns, plus the bias; the sum over 1000
  is the double sum over (slot, column).
-/
import proofs.«409882_j15101105013315_3_alg».proof.Proof.ReadP
import proofs.«409882_j15101105013315_3_alg».proof.Proof.Spec
import proofs.«409882_j15101105013315_3_alg».proof.Proof.LibAllOnes
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP
open Idealize.ShloMosaic Idealize.ShloMosaic.ValueIdx Cert.Spec

/-! ## A position word in range -/

/-- A 32-bit word below 64, read signed, is the same number. -/
theorem toInt_of_lt64 (w : BitVec 32) (hw : w.toNat < 64) : w.toInt = (w.toNat : Int) := by
  rw [BitVec.toInt_eq_toNat_cond]
  have : 2 * w.toNat < 2 ^ 32 := by omega
  rw [if_pos this]

/-- Such a word is not negative, so "add 64 if negative" leaves it alone. -/
theorem wrap_of_lt64 (w : BitVec 32) (hw : w.toNat < 64) :
    Scalar.select (IntOp.cmpi .slt w 0#32) (IntOp.addi w 64#32) w = w := by
  have h0 : IntOp.cmpi .slt w 0#32 = 0#1 := by
    have : w.slt 0#32 = false := by
      rw [BitVec.slt, toInt_of_lt64 w hw]
      simp
    simp [IntOp.cmpi, this]
  rw [h0, select_zero]

/-- Such a word passes the bounds test `0 ≤ w ∧ w ≤ 63`. -/
theorem inb_of_lt64 (w : BitVec 32) (hw : w.toNat < 64) :
    IntOp.andi (IntOp.cmpi .sge w 0#32) (IntOp.cmpi .sle w 63#32) = 1#1 := by
  have h1 : IntOp.cmpi .sge w 0#32 = 1#1 := by
    have : (0#32 : BitVec 32).sle w = true := by
      rw [BitVec.sle, toInt_of_lt64 w hw]
      simp
    simp [IntOp.cmpi, this]
  have h2 : IntOp.cmpi .sle w 63#32 = 1#1 := by
    have : w.sle 63#32 = true := by
      rw [BitVec.sle, toInt_of_lt64 w hw]
      simp
      omega
    simp [IntOp.cmpi, this]
  rw [h1, h2]
  decide

/-- The gather's clamp of such a word's signed value into [0, 63] is the word's value. -/
theorem clamp_of_lt64 (w : BitVec 32) (hw : w.toNat < 64) : min w.toInt.toNat 63 = w.toNat := by
  rw [toInt_of_lt64 w hw, Int.toNat_natCast]
  omega

/-! ## The row gather, read at an index

The reference's `take_along_axis` lowers to a gather with a batching axis (the state), one collapsed axis (the
sentence position, named by the start index) and one offset axis (the 250 columns). Read at (b, k, d) it is the
operand at (b, the start word at (b, k, 0) read signed and clamped into [0, 63], d). -/

theorem gather0_apply {α : Type} (x : S16384x64x250.Idx → α) (idx : IVec S16384x3x1 32) (b : Fin 16384) (k : Fin 3) (d : Fin 250) :
    Host.gather gather_S16384x64x250_S16384x3x1_S16384x3x250_2_1_0_0_1_2_11250 x idx (ix3 b k d)
      = x (ix3 b (⟨min (idx (ix3 b k (0 : Fin 1))).toInt.toNat 63, by omega⟩ : Fin 64) d) := by
  unfold Host.gather
  refine congrArg x (funext fun a => Fin.ext ?_)
  match a with
  | ⟨0, _⟩ =>
    show gather_S16384x64x250_S16384x3x1_S16384x3x250_2_1_0_0_1_2_11250.start (ix3 b k d) idx 0 + gather_S16384x64x250_S16384x3x1_S16384x3x250_2_1_0_0_1_2_11250.batchCoord (ix3 b k d) 0 + gather_S16384x64x250_S16384x3x1_S16384x3x250_2_1_0_0_1_2_11250.offCoord (ix3 b k d) 0 = _
    rw [GatherDims.start_batching _ _ _ _ (by decide), GatherDims.offCoord_eq_zero _ _ _ (by decide),
      Nat.zero_add, Nat.add_zero]
    rfl
  | ⟨1, _⟩ =>
    show gather_S16384x64x250_S16384x3x1_S16384x3x250_2_1_0_0_1_2_11250.start (ix3 b k d) idx 1 + gather_S16384x64x250_S16384x3x1_S16384x3x250_2_1_0_0_1_2_11250.batchCoord (ix3 b k d) 1 + gather_S16384x64x250_S16384x3x1_S16384x3x250_2_1_0_0_1_2_11250.offCoord (ix3 b k d) 1 = _
    rw [GatherDims.batchCoord_eq_zero _ _ _ (by decide), GatherDims.offCoord_eq_zero _ _ _ (by decide)]
    simp only [Nat.add_zero]
    unfold GatherDims.start
    rw [dif_pos (show (1 : Fin 3) ∈ gather_S16384x64x250_S16384x3x1_S16384x3x250_2_1_0_0_1_2_11250.startIndexMap by decide)]
    have hsi : gather_S16384x64x250_S16384x3x1_S16384x3x250_2_1_0_0_1_2_11250.siIdx (ix3 b k d)
        ⟨List.idxOf (1 : Fin 3) gather_S16384x64x250_S16384x3x1_S16384x3x250_2_1_0_0_1_2_11250.startIndexMap, List.idxOf_lt_length_iff.2 (by decide)⟩
          = ix3 b k (0 : Fin 1) := by
      funext c; refine Fin.ext ?_
      match c with
      | ⟨0, _⟩ => rfl
      | ⟨1, _⟩ => rfl
      | ⟨2, _⟩ => rfl
    rw [hsi]
    rfl
  | ⟨2, _⟩ =>
    show gather_S16384x64x250_S16384x3x1_S16384x3x250_2_1_0_0_1_2_11250.start (ix3 b k d) idx 2 + gather_S16384x64x250_S16384x3x1_S16384x3x250_2_1_0_0_1_2_11250.batchCoord (ix3 b k d) 2 + gather_S16384x64x250_S16384x3x1_S16384x3x250_2_1_0_0_1_2_11250.offCoord (ix3 b k d) 2 = _
    rw [GatherDims.batchCoord_eq_zero _ _ _ (by decide)]
    unfold GatherDims.start
    rw [dif_neg (show ¬(2 : Fin 3) ∈ gather_S16384x64x250_S16384x3x1_S16384x3x250_2_1_0_0_1_2_11250.startIndexMap by decide), Nat.add_zero, Nat.zero_add]
    rfl

theorem gather1_apply {α : Type} (x : S16384x64x250.Idx → α) (idx : IVec S16384x1x1 32) (b : Fin 16384) (k : Fin 1) (d : Fin 250) :
    Host.gather gather_S16384x64x250_S16384x1x1_S16384x1x250_2_1_0_0_1_2_11250 x idx (ix3 b k d)
      = x (ix3 b (⟨min (idx (ix3 b k (0 : Fin 1))).toInt.toNat 63, by omega⟩ : Fin 64) d) := by
  unfold Host.gather
  refine congrArg x (funext fun a => Fin.ext ?_)
  match a with
  | ⟨0, _⟩ =>
    show gather_S16384x64x250_S16384x1x1_S16384x1x250_2_1_0_0_1_2_11250.start (ix3 b k d) idx 0 + gather_S16384x64x250_S16384x1x1_S16384x1x250_2_1_0_0_1_2_11250.batchCoord (ix3 b k d) 0 + gather_S16384x64x250_S16384x1x1_S16384x1x250_2_1_0_0_1_2_11250.offCoord (ix3 b k d) 0 = _
    rw [GatherDims.start_batching _ _ _ _ (by decide), GatherDims.offCoord_eq_zero _ _ _ (by decide),
      Nat.zero_add, Nat.add_zero]
    rfl
  | ⟨1, _⟩ =>
    show gather_S16384x64x250_S16384x1x1_S16384x1x250_2_1_0_0_1_2_11250.start (ix3 b k d) idx 1 + gather_S16384x64x250_S16384x1x1_S16384x1x250_2_1_0_0_1_2_11250.batchCoord (ix3 b k d) 1 + gather_S16384x64x250_S16384x1x1_S16384x1x250_2_1_0_0_1_2_11250.offCoord (ix3 b k d) 1 = _
    rw [GatherDims.batchCoord_eq_zero _ _ _ (by decide), GatherDims.offCoord_eq_zero _ _ _ (by decide)]
    simp only [Nat.add_zero]
    unfold GatherDims.start
    rw [dif_pos (show (1 : Fin 3) ∈ gather_S16384x64x250_S16384x1x1_S16384x1x250_2_1_0_0_1_2_11250.startIndexMap by decide)]
    have hsi : gather_S16384x64x250_S16384x1x1_S16384x1x250_2_1_0_0_1_2_11250.siIdx (ix3 b k d)
        ⟨List.idxOf (1 : Fin 3) gather_S16384x64x250_S16384x1x1_S16384x1x250_2_1_0_0_1_2_11250.startIndexMap, List.idxOf_lt_length_iff.2 (by decide)⟩
          = ix3 b k (0 : Fin 1) := by
      funext c; refine Fin.ext ?_
      match c with
      | ⟨0, _⟩ => rfl
      | ⟨1, _⟩ => rfl
      | ⟨2, _⟩ => rfl
    rw [hsi]
    rfl
  | ⟨2, _⟩ =>
    show gather_S16384x64x250_S16384x1x1_S16384x1x250_2_1_0_0_1_2_11250.start (ix3 b k d) idx 2 + gather_S16384x64x250_S16384x1x1_S16384x1x250_2_1_0_0_1_2_11250.batchCoord (ix3 b k d) 2 + gather_S16384x64x250_S16384x1x1_S16384x1x250_2_1_0_0_1_2_11250.offCoord (ix3 b k d) 2 = _
    rw [GatherDims.batchCoord_eq_zero _ _ _ (by decide)]
    unfold GatherDims.start
    rw [dif_neg (show ¬(2 : Fin 3) ∈ gather_S16384x64x250_S16384x1x1_S16384x1x250_2_1_0_0_1_2_11250.startIndexMap by decide), Nat.add_zero, Nat.zero_add]
    rfl

/-! ## The specification's words, slot by slot -/

section
variable (x0 : FVec Ideal S16384x64x250 .f32) (x5 : IVec S16384x3 32) (x6 : IVec S16384x1 32) (x7 x8 : IVec S16384 32)

/-- A stack slot's position word is its entry of the stack-index array. -/
theorem posWord_stack (b : Fin 16384) (k : Fin 3) :
    posWord x5 x6 b (⟨k.val, by have := k.isLt; omega⟩ : Fin 4) = x5 (ix2 b k) := by
  unfold posWord
  exact dif_pos k.isLt

/-- The buffer slot's position word is the state's entry of the buffer-index array. -/
theorem posWord_buffer (b : Fin 16384) : posWord x5 x6 b (3 : Fin 4) = x6 (ix2 b (0 : Fin 1)) := by
  unfold posWord
  exact dif_neg (by decide)

/-- In range, a slot's position is its word's value. -/
theorem pos_val (h : InRange x5 x6) (b : Fin 16384) (k : Fin 4) : (pos x5 x6 b k).val = (posWord x5 x6 b k).toNat :=
  Nat.mod_eq_of_lt (h b k)

/-- A stack slot's live factor. -/
theorem live_stack (b : Fin 16384) (k : Fin 3) :
    live x7 x8 b (⟨k.val, by have := k.isLt; omega⟩ : Fin 4)
      = (((IntOp.cmpi .slt (BitVec.ofNat 32 k.val) (x7 (ix1 b))).toNat : ℝ) : EReal) := by
  unfold live liveBit
  rw [if_pos (show (⟨k.val, by have := k.isLt; omega⟩ : Fin 4).val < 3 from k.isLt)]

/-- The buffer slot's live factor. -/
theorem live_buffer (b : Fin 16384) :
    live x7 x8 b (3 : Fin 4) = (((IntOp.cmpi .slt 0#32 (x8 (ix1 b))).toNat : ℝ) : EReal) := by
  unfold live liveBit
  rw [if_neg (show ¬(3 : Fin 4).val < 3 by decide)]

/-! ## The three stack slots -/

/-- The wrapped index of a stack slot in range is the word itself. -/
theorem idx0_apply (b : Fin 16384) (k : Fin 3) (z : Fin 1) (hw : (x5 (ix2 b k)).toNat < 64) :
    val_main_call0_v4 (F := Ideal) x5 (ix3 b k z) = x5 (ix2 b k) := by
  have e0 : val_main_v0 (F := Ideal) x5 (ix3 b k z) = x5 (ix2 b k) := by
    rw [val_main_v0_apply]
    refine congrArg x5 (funext fun a => ?_)
    match a with
    | ⟨0, _⟩ => rfl
    | ⟨1, _⟩ => rfl
  have ez : val_main_call0_v0 (F := Ideal) (ix3 b k z) = 0#32 := by rw [val_main_call0_v0_apply]; rfl
  have e64 : val_main_call0_v2 (F := Ideal) (ix3 b k z) = 64#32 := by rw [val_main_call0_v2_apply]; rfl
  rw [val_main_call0_v4_apply, val_main_call0_v1_apply, val_main_call0_v3_apply, e0, ez, e64]
  exact wrap_of_lt64 _ hw

/-- The bounds test of a stack slot in range passes. -/
theorem inb0_apply (b : Fin 16384) (k : Fin 3) (z : Fin 1) (hw : (x5 (ix2 b k)).toNat < 64) :
    val_main_call0_v10 (F := Ideal) x5 (ix3 b k z) = 1#1 := by
  have ez : val_main_call0_v5 (F := Ideal) (ix3 b k z) = 0#32 := by rw [val_main_call0_v5_apply]; rfl
  have e63 : val_main_call0_v8 (F := Ideal) (ix3 b k z) = 63#32 := by
    rw [val_main_call0_v8_apply, val_main_call0_v7_apply]; rfl
  rw [val_main_call0_v10_apply, val_main_call0_v6_apply, val_main_call0_v9_apply, idx0_apply x5 b k z hw, ez, e63]
  exact inb_of_lt64 _ hw

/-- So the mask of the stack gather is all ones. -/
theorem mask0 (h : InRange x5 x6) (j : S16384x3.Idx) : val_main_call0_v11 (F := Ideal) x5 j = 1#1 := by
  unfold val_main_call0_v11
  refine Cert.LibAllOnes.reduce_andi_of_all _ _ reducesTo_S16384x3x1_S16384x3_d2 h_S_ j rfl (fun i => ?_)
  obtain ⟨b, k, z, rfl⟩ : ∃ (b : Fin 16384) (k : Fin 3) (z : Fin 1), i = ix3 b k z := ⟨i 0, i 1, i 2, eq_ix3 i⟩
  refine inb0_apply x5 b k z ?_
  have := h b (⟨k.val, by have := k.isLt; omega⟩ : Fin 4)
  rwa [posWord_stack] at this

/-- The stack slots' gathered rows, times the live factor: the feature of slot `k`. -/
theorem stack_apply (h : InRange x5 x6) (b : Fin 16384) (k : Fin 3) (d : Fin 250) :
    val_main_v11 (F := Ideal) x0 x5 x7 (ix3 b k d)
      = feat x0 x5 x6 x7 x8 b (⟨k.val, by have := k.isLt; omega⟩ : Fin 4) d := by
  have hw : (x5 (ix2 b k)).toNat < 64 := by
    have := h b (⟨k.val, by have := k.isLt; omega⟩ : Fin 4)
    rwa [posWord_stack] at this
  -- the mask picks the gathered entry
  have hm : val_main_call0_v13 (F := Ideal) x5 (ix3 b k d) = 1#1 := by
    rw [val_main_call0_v13_apply]; exact mask0 x5 x6 h _
  -- the gathered entry is the LSTM entry at the word's position
  have hg : val_main_call0_v12 (F := Ideal) x0 x5 (ix3 b k d)
      = x0 (ix3 b (pos x5 x6 b (⟨k.val, by have := k.isLt; omega⟩ : Fin 4)) d) := by
    unfold val_main_call0_v12
    rw [gather0_apply]
    refine congrArg x0 (funext fun a => ?_)
    match a with
    | ⟨0, _⟩ => rfl
    | ⟨1, _⟩ =>
      refine Fin.ext ?_
      show min (val_main_call0_v4 (F := Ideal) x5 (ix3 b k (0 : Fin 1))).toInt.toNat 63
        = (pos x5 x6 b (⟨k.val, by have := k.isLt; omega⟩ : Fin 4)).val
      rw [idx0_apply x5 b k 0 hw, clamp_of_lt64 _ hw, pos_val x5 x6 h, posWord_stack]
    | ⟨2, _⟩ => rfl
  -- the live factor
  have hl : val_main_v10 (F := Ideal) x7 (ix3 b k d)
      = live x7 x8 b (⟨k.val, by have := k.isLt; omega⟩ : Fin 4) := by
    have e5 : val_main_v5 (F := Ideal) (ix2 b k) = BitVec.ofNat 32 k.val := by
      rw [val_main_v5_apply, val_main_v3_apply, val_main_v2_apply]
    have e6 : val_main_v6 (F := Ideal) x7 (ix2 b k) = x7 (ix1 b) := by
      rw [val_main_v6_apply, val_main_v4_apply]
      refine congrArg x7 (funext fun a => ?_)
      match a with
      | ⟨0, _⟩ => rfl
    have ei : idx_main_v8 (idx_main_v10 (ix3 b k d)) = ix2 b k := by
      funext a
      match a with
      | ⟨0, _⟩ => rfl
      | ⟨1, _⟩ => rfl
    rw [val_main_v10_apply, val_main_v9_apply, val_main_v8_apply, ei, val_main_v7_apply, e5, e6, live_stack]
    rfl
  rw [val_main_v11_apply, val_main_v1_apply, hm, select_one, hg, hl]
  rfl

end

section
variable (x0 : FVec Ideal S16384x64x250 .f32) (x5 : IVec S16384x3 32) (x6 : IVec S16384x1 32) (x7 x8 : IVec S16384 32)

/-! ## The buffer slot -/

/-- The wrapped index of the buffer slot in range is the word itself. -/
theorem idx1_apply (b : Fin 16384) (k z : Fin 1) (hw : (x6 (ix2 b (0 : Fin 1))).toNat < 64) :
    val_main_call1_v4 (F := Ideal) x6 (ix3 b k z) = x6 (ix2 b (0 : Fin 1)) := by
  have e0 : val_main_v13 (F := Ideal) x6 (ix3 b k z) = x6 (ix2 b (0 : Fin 1)) := by
    rw [val_main_v13_apply]
    refine congrArg x6 (funext fun a => ?_)
    match a with
    | ⟨0, _⟩ => rfl
    | ⟨1, _⟩ => rfl
  have ez : val_main_call1_v0 (F := Ideal) (ix3 b k z) = 0#32 := by rw [val_main_call1_v0_apply]; rfl
  have e64 : val_main_call1_v2 (F := Ideal) (ix3 b k z) = 64#32 := by rw [val_main_call1_v2_apply]; rfl
  rw [val_main_call1_v4_apply, val_main_call1_v1_apply, val_main_call1_v3_apply, e0, ez, e64]
  exact wrap_of_lt64 _ hw

/-- The bounds test of the buffer slot in range passes. -/
theorem inb1_apply (b : Fin 16384) (k z : Fin 1) (hw : (x6 (ix2 b (0 : Fin 1))).toNat < 64) :
    val_main_call1_v10 (F := Ideal) x6 (ix3 b k z) = 1#1 := by
  have ez : val_main_call1_v5 (F := Ideal) (ix3 b k z) = 0#32 := by rw [val_main_call1_v5_apply]; rfl
  have e63 : val_main_call1_v8 (F := Ideal) (ix3 b k z) = 63#32 := by
    rw [val_main_call1_v8_apply, val_main_call1_v7_apply]; rfl
  rw [val_main_call1_v10_apply, val_main_call1_v6_apply, val_main_call1_v9_apply, idx1_apply x6 b k z hw, ez, e63]
  exact inb_of_lt64 _ hw

/-- So the mask of the buffer gather is all ones. -/
theorem mask1 (h : InRange x5 x6) (j : S16384x1.Idx) : val_main_call1_v11 (F := Ideal) x6 j = 1#1 := by
  unfold val_main_call1_v11
  refine Cert.LibAllOnes.reduce_andi_of_all _ _ reducesTo_S16384x1x1_S16384x1_d2 h_S_ j rfl (fun i => ?_)
  obtain ⟨b, k, z, rfl⟩ : ∃ (b : Fin 16384) (k : Fin 1) (z : Fin 1), i = ix3 b k z := ⟨i 0, i 1, i 2, eq_ix3 i⟩
  refine inb1_apply x6 b k z ?_
  have := h b (3 : Fin 4)
  rwa [posWord_buffer] at this

/-- The buffer slot's gathered row, times the live factor: the feature of slot 3. -/
theorem buffer_apply (h : InRange x5 x6) (b : Fin 16384) (d : Fin 250) :
    val_main_v23 (F := Ideal) x0 x6 x8 (ix3 b (0 : Fin 1) d) = feat x0 x5 x6 x7 x8 b (3 : Fin 4) d := by
  have hw : (x6 (ix2 b (0 : Fin 1))).toNat < 64 := by
    have := h b (3 : Fin 4)
    rwa [posWord_buffer] at this
  have hm : val_main_call1_v13 (F := Ideal) x6 (ix3 b (0 : Fin 1) d) = 1#1 := by
    rw [val_main_call1_v13_apply]; exact mask1 x5 x6 h _
  have hg : val_main_call1_v12 (F := Ideal) x0 x6 (ix3 b (0 : Fin 1) d)
      = x0 (ix3 b (pos x5 x6 b (3 : Fin 4)) d) := by
    unfold val_main_call1_v12
    rw [gather1_apply]
    refine congrArg x0 (funext fun a => ?_)
    match a with
    | ⟨0, _⟩ => rfl
    | ⟨1, _⟩ =>
      refine Fin.ext ?_
      show min (val_main_call1_v4 (F := Ideal) x6 (ix3 b (0 : Fin 1) (0 : Fin 1))).toInt.toNat 63
        = (pos x5 x6 b (3 : Fin 4)).val
      rw [idx1_apply x6 b 0 0 hw, clamp_of_lt64 _ hw, pos_val x5 x6 h, posWord_buffer]
    | ⟨2, _⟩ => rfl
  have hl : val_main_v22 (F := Ideal) x8 (ix3 b (0 : Fin 1) d) = live x7 x8 b (3 : Fin 4) := by
    have e18 : val_main_v18 (F := Ideal) (ix2 b (0 : Fin 1)) = 0#32 := by
      rw [val_main_v18_apply, val_main_v16_apply, val_main_v15_apply]
    have e17 : val_main_v17 (F := Ideal) x8 (ix2 b (0 : Fin 1)) = x8 (ix1 b) := by
      rw [val_main_v17_apply]
      refine congrArg x8 (funext fun a => ?_)
      match a with
      | ⟨0, _⟩ => rfl
    have ei : idx_main_v20 (idx_main_v22 (ix3 b (0 : Fin 1) d)) = ix2 b (0 : Fin 1) := by
      funext a
      match a with
      | ⟨0, _⟩ => rfl
      | ⟨1, _⟩ => rfl
    rw [val_main_v22_apply, val_main_v21_apply, val_main_v20_apply, ei, val_main_v19_apply, e18, e17, live_buffer]
    rfl
  rw [val_main_v23_apply, val_main_v14_apply, hm, select_one, hg, hl]
  rfl

/-! ## The 1000 columns: three stack slots end to end, then the buffer slot -/

/-- Column `250·k + d`, `k < 3`, is entry (k, d) of the stack slots' product. -/
theorem cat_stack (b : Fin 16384) (k : Fin 3) (d : Fin 250) :
    val_main_v25 (F := Ideal) x0 x5 x6 x7 x8 (ix2 b (flat (⟨k.val, by have := k.isLt; omega⟩ : Fin 4) d))
      = val_main_v11 (F := Ideal) x0 x5 x7 (ix3 b k d) := by
  have hk := k.isLt
  have hd := d.isLt
  unfold val_main_v25
  refine (concatenate_pair_apply_left 1 _ _ concatenates_S16384x750_S16384x250_S16384x1000_d1
    (ix2 b (flat (⟨k.val, by omega⟩ : Fin 4) d)) rfl (ix2 b (⟨250 * k.val + d.val, by omega⟩ : Fin 750)) (fun a => ?_)).trans ?_
  · match a with
    | ⟨0, _⟩ => rfl
    | ⟨1, _⟩ => rfl
  rw [val_main_v12_apply]
  refine congrArg _ (funext fun a => Fin.ext ?_)
  match a with
  | ⟨0, _⟩ => show (b.val * 750 + (250 * k.val + d.val)) / 750 = b.val; omega
  | ⟨1, _⟩ => show (b.val * 750 + (250 * k.val + d.val)) / 250 % 3 = k.val; omega
  | ⟨2, _⟩ => show (b.val * 750 + (250 * k.val + d.val)) % 250 = d.val; omega

/-- Column `750 + d` is entry `d` of the buffer slot's product. -/
theorem cat_buffer (b : Fin 16384) (d : Fin 250) :
    val_main_v25 (F := Ideal) x0 x5 x6 x7 x8 (ix2 b (flat (3 : Fin 4) d))
      = val_main_v23 (F := Ideal) x0 x6 x8 (ix3 b (0 : Fin 1) d) := by
  have hd := d.isLt
  unfold val_main_v25
  refine (concatenate_pair_apply_right 1 _ _ concatenates_S16384x750_S16384x250_S16384x1000_d1
    (ix2 b (flat (3 : Fin 4) d)) rfl rfl (ix2 b d) (fun a ha => ?_) ?_).trans ?_
  · match a with
    | ⟨0, _⟩ => rfl
    | ⟨1, _⟩ => exact absurd rfl ha
  · show d.val + 750 = 250 * 3 + d.val
    omega
  rw [val_main_v24_apply]
  refine congrArg _ (funext fun a => Fin.ext ?_)
  match a with
  | ⟨0, _⟩ => show (b.val * 250 + d.val) / 250 = b.val; omega
  | ⟨1, _⟩ => rfl
  | ⟨2, _⟩ => show (b.val * 250 + d.val) % 250 = d.val; omega

/-- Column `flat k d` of the reference's 1000-column matrix is the specification's feature. -/
theorem mlp_apply (h : InRange x5 x6) (b : Fin 16384) (k : Fin 4) (d : Fin 250) :
    val_main_v25 (F := Ideal) x0 x5 x6 x7 x8 (ix2 b (flat k d)) = feat x0 x5 x6 x7 x8 b k d := by
  obtain ⟨kv, hk⟩ := k
  by_cases h3 : kv < 3
  · exact (cat_stack x0 x5 x6 x7 x8 b ⟨kv, h3⟩ d).trans (stack_apply x0 x5 x6 x7 x8 h b ⟨kv, h3⟩ d)
  · have e : kv = 3 := by omega
    subst e
    exact (cat_buffer x0 x5 x6 x7 x8 b d).trans (buffer_apply x0 x5 x6 x7 x8 h b d)

end

/-- The transitions head of the reference is the specification's. -/
theorem ref_T (x0 : FVec Ideal S16384x64x250 .f32) (x1 : FVec Ideal S4x1000 .f32) (x2 : FVec Ideal S4 .f32)
    (x5 : IVec S16384x3 32) (x6 : IVec S16384x1 32) (x7 x8 : IVec S16384 32) (h : InRange x5 x6) :
    val_main_v31 (F := Ideal) x0 x1 x2 x5 x6 x7 x8 = outT x0 x5 x6 x7 x8 x1 x2 := by
  funext i
  obtain ⟨b, n, rfl⟩ : ∃ (b : Fin 16384) (n : Fin 4), i = ix2 b n := ⟨i 0, i 1, eq_ix2 i⟩
  rw [val_main_v31_apply, val_main_v30_apply, val_main_v27_apply, val_main_v29_apply, val_main_v28_apply, sum_flat,
    Ideal.hostUnary_tanh_def, Ideal.addf_def]
  unfold outT entry2
  refine congrArg Ideal.tanh (congrArg₂ (· + ·)
    (Finset.sum_congr rfl fun k _ => Finset.sum_congr rfl fun d _ => ?_) (congrArg x2 (funext fun a => ?_)))
  · have el : lidx_main_v27 (ix2 b n) (flat k d) = ix2 b (flat k d) := by
      funext a
      match a with
      | ⟨0, _⟩ => rfl
      | ⟨1, _⟩ => rfl
    have er : idx_main_v26 (ridx_main_v27 (ix2 b n) (flat k d)) = ix2 n (flat k d) := by
      funext a
      match a with
      | ⟨0, _⟩ => rfl
      | ⟨1, _⟩ => rfl
    rw [el, mlp_apply x0 x5 x6 x7 x8 h b k d, val_main_v26_apply, er]
  · match a with
    | ⟨0, _⟩ => rfl

/-- The relations head of the reference is the specification's. -/
theorem ref_R (x0 : FVec Ideal S16384x64x250 .f32) (x3 : FVec Ideal S50x1000 .f32) (x4 : FVec Ideal S50 .f32)
    (x5 : IVec S16384x3 32) (x6 : IVec S16384x1 32) (x7 x8 : IVec S16384 32) (h : InRange x5 x6) :
    val_main_v37 (F := Ideal) x0 x3 x4 x5 x6 x7 x8 = outR x0 x5 x6 x7 x8 x3 x4 := by
  funext i
  obtain ⟨b, n, rfl⟩ : ∃ (b : Fin 16384) (n : Fin 50), i = ix2 b n := ⟨i 0, i 1, eq_ix2 i⟩
  rw [val_main_v37_apply, val_main_v36_apply, val_main_v33_apply, val_main_v35_apply, val_main_v34_apply, sum_flat,
    Ideal.hostUnary_tanh_def, Ideal.addf_def]
  unfold outR entry2
  refine congrArg Ideal.tanh (congrArg₂ (· + ·)
    (Finset.sum_congr rfl fun k _ => Finset.sum_congr rfl fun d _ => ?_) (congrArg x4 (funext fun a => ?_)))
  · have el : lidx_main_v33 (ix2 b n) (flat k d) = ix2 b (flat k d) := by
      funext a
      match a with
      | ⟨0, _⟩ => rfl
      | ⟨1, _⟩ => rfl
    have er : idx_main_v32 (ridx_main_v33 (ix2 b n) (flat k d)) = ix2 n (flat k d) := by
      funext a
      match a with
      | ⟨0, _⟩ => rfl
      | ⟨1, _⟩ => rfl
    rw [el, mlp_apply x0 x5 x6 x7 x8 h b k d, val_main_v32_apply, er]
  · match a with
    | ⟨0, _⟩ => rfl

end Cert.ReferenceIdeal.RefValue

end
-- ==== Proof.lean ====
/-
  The kernel and the reference compute the same two arrays over the extended reals.

  A parser state has three stack slots and one buffer slot; each names a sentence position and may be live or not. Both
  programs form, for every state, the feature vector of length 1000 whose slot `k` part is row "position of slot `k`"
  of the state's 64 × 250 matrix of LSTM outputs, multiplied by the slot's live bit (0 or 1), and apply two linear heads
  followed by `tanh`: 4 transition scores and 50 relation scores.

  The reference takes the row with a gather that moves a negative position up by 64 and fills an out-of-range one; the
  kernel clamps the position to [0, 63], compares it with the 64 column indices, and sums the LSTM outputs against that
  indicator times the live factor: the sum of `(indicator · live) · value` over the 64 positions is `live · value` at the
  named position, because `0 · x = 0` for every extended real. When every position word lies in [0, 64) — the
  precondition's added conjuncts — the two rows are the same row. The kernel multiplies each slot's row by a 250 × 128
  slice of a fused weight (transitions in lanes 0–3, relations in lanes 4–53) and adds the four products; the reference
  multiplies the whole feature vector by each transposed weight matrix: a sum over 1000 columns, which is the sum over
  the four slots of the sums over a slot's 250 columns. Only commutativity and associativity of `+` and `·` join the
  two sides, so the finiteness of the float arguments is not used.

  Modules: Spec (the common function), PreRange (the precondition gives the positions' range), KBody (the kernel body
  at an index), KHost (the arrays the kernel's region finds), KValue (blocks to arrays), RValue (the reference).
-/
import proofs.«409882_j15101105013315_3_alg».proof.Defs
import proofs.«409882_j15101105013315_3_alg».proof.Proof.Gen.Kernel
import proofs.«409882_j15101105013315_3_alg».proof.Proof.Gen.Kernel.Skeleton
import proofs.«409882_j15101105013315_3_alg».proof.Proof.Gen.Kernel.Launch
import proofs.«409882_j15101105013315_3_alg».proof.Proof.Gen.Kernel.Points
import proofs.«409882_j15101105013315_3_alg».proof.Proof.Gen.Kernel.Frame
import proofs.«409882_j15101105013315_3_alg».proof.Proof.Gen.KernelIdeal
import proofs.«409882_j15101105013315_3_alg».proof.Proof.Gen.KernelIdeal.Skeleton
import proofs.«409882_j15101105013315_3_alg».proof.Proof.Gen.KernelIdeal.Launch
import proofs.«409882_j15101105013315_3_alg».proof.Proof.Gen.KernelIdeal.Points
import proofs.«409882_j15101105013315_3_alg».proof.Proof.Gen.KernelIdeal.Frame
import proofs.«409882_j15101105013315_3_alg».proof.Proof.Gen.ReferenceIdeal
import proofs.«409882_j15101105013315_3_alg».proof.Proof.Gen.Pre_finite_inputs
import proofs.«409882_j15101105013315_3_alg».proof.Proof.Gen.KernelIdeal.Value
import proofs.«409882_j15101105013315_3_alg».proof.Proof.RunP
import proofs.«409882_j15101105013315_3_alg».proof.Proof.ReadP
import proofs.«409882_j15101105013315_3_alg».proof.Proof.Spec
import proofs.«409882_j15101105013315_3_alg».proof.Proof.PreRange
import proofs.«409882_j15101105013315_3_alg».proof.Proof.KValue
import proofs.«409882_j15101105013315_3_alg».proof.Proof.RValue
import Idealize.ShloMosaic.Adequacy
import Idealize.ShloMosaic.Init

noncomputable section

namespace Cert.Proof

open Idealize.ShloMosaic Idealize.SL.Sem Cert.Spec
open Cert.KernelIdeal.HostSide Cert.KernelIdeal.ArrayValue

/-- The word-level kernel runs and leaves its arguments alone: the generated frame. -/
theorem frame_k : Cert.frame_Kernel := fun m ρ _ => Cert.Kernel.Gen.frame m ρ

/-- So does the kernel over the extended reals. -/
theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealization rewrote nothing. -/
theorem preserves : Cert.preserves_Kernel_KernelIdeal := trivial

/-- Both programs end with the specification's two arrays of the (agreeing) arguments: the kernel by its blocks, which
    tile the outputs; the reference by its stages read at an index. The precondition is used for one thing: every
    position word lies in [0, 64). -/
theorem algebraic : Cert.algebraic_KernelIdeal_ReferenceIdeal := by
  intro m ρ m' ρ' hpre hagree
  have hr : ∀ c, InRange (a5 m c) (a6 m c) := fun c =>
    Cert.PreRange.inRange_of_pre (F := Ideal) _ _ _ _ _ _ _ _ _ (hpre c)
  refine ⟨fun c => outT (a0 m c) (a5 m c) (a6 m c) (a7 m c) (a8 m c) (a1 m c) (a2 m c),
    fun c => outR (a0 m c) (a5 m c) (a6 m c) (a7 m c) (a8 m c) (a3 m c) (a4 m c), ?_, ?_⟩
  · exact (θ_run Cert.KernelIdeal.defs _ _).mono
      (fun r h c => ⟨(h c).1.trans (final5 m c (hr c)), (h c).2.1.trans (final6 m c (hr c)), (h c).2.2⟩)
      (Cert.KernelIdeal.Value.run_blocks m ρ)
  · refine (θ_run Cert.ReferenceIdeal.defs _ _).mono (fun r h c => ?_)
      (Cert.ReferenceIdeal.ValueP.run (F := Ideal) m' ρ')
    obtain ⟨h31, h37, hargs⟩ := h c
    obtain ⟨g0, g1, g2, g3, g4, g5, g6, g7, g8⟩ := hagree c
    refine ⟨?_, ?_, hargs⟩
    · rw [h31, Cert.ReferenceIdeal.ReadP.val_main_v31_eq, g0, g1, g2, g5, g6, g7, g8]
      exact Cert.ReferenceIdeal.RefValue.ref_T _ _ _ _ _ _ _ (hr c)
    · rw [h37, Cert.ReferenceIdeal.ReadP.val_main_v37_eq, g0, g3, g4, g5, g6, g7, g8]
      exact Cert.ReferenceIdeal.RefValue.ref_R _ _ _ _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
